-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x64 .f32 .bf16
  ∧ IdealRules.truncf_extf.Statement Cert.KernelIdeal.S1024x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x32 .f32) (main_arg8 : FVec F S10 .f32) (main_v33 : IVec S_ 1) : IVec S_ 1 :=
  let main_v34 : FVec F S10x32 .f32 := Host.absf main_arg7
  let main_cst_12 : FVec F S_ .f32 := constant S_ .f32 0x7F800000#32
  let main_v35 : FVec F S10x32 .f32 := broadcastInDim S10x32 ![] bcast_S_S10x32 main_cst_12
  let main_v36 : IVec S10x32 1 := cmpf .olt main_v34 main_v35
  let main_c_13 : IVec S_ 1 := constantI S_ 1 1#1
  let main_v37 : IVec S_ 1 := (fun x v => Host.reduce IntOp.andi x v reducesTo_S10x32_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S64 .f32) (main_arg5 : FVec F S32x64 .f32) (main_arg6 : FVec F S32 .f32) (main_arg7 : FVec F S10x32 .f32) (main_arg8 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S8x1024x128 .f32) (main_arg1 : FVec F S8x1024x1024 .f32) (main_arg2 : FVec F S8x1024 .f32) (main_arg3 : FVec F S64x128 .f32) (main_arg4 : FVec F S64 .f32) (main_arg5 : FVec F S32x64 .f32) (main_arg6 : FVec F S32 .f32) (main_arg7 : FVec F S10x32 .f32) (main_arg8 : FVec F S10 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S128x64 : Shape := ⟨2, ![128, 64]⟩
abbrev S64x32 : Shape := ⟨2, ![64, 32]⟩
abbrev S32x10 : Shape := ⟨2, ![32, 10]⟩
abbrev S1x64 : Shape := ⟨2, ![1, 64]⟩
abbrev S1x32 : Shape := ⟨2, ![1, 32]⟩
abbrev S1x10 : Shape := ⟨2, ![1, 10]⟩
abbrev S8x1x1024 : Shape := ⟨3, ![8, 1, 1024]⟩
abbrev S8x1x10 : Shape := ⟨3, ![8, 1, 10]⟩
abbrev S1x1024x128 : Shape := ⟨3, ![1, 1024, 128]⟩
abbrev S1x1024x1024 : Shape := ⟨3, ![1, 1024, 1024]⟩
abbrev S1x1x1024 : Shape := ⟨3, ![1, 1, 1024]⟩
abbrev S1x1x10 : Shape := ⟨3, ![1, 1, 10]⟩
abbrev S1024x128 : Shape := ⟨2, ![1024, 128]⟩
abbrev S1024x1024 : Shape := ⟨2, ![1024, 1024]⟩
abbrev S1x1024 : Shape := ⟨2, ![1, 1024]⟩
abbrev S1024x1 : Shape := ⟨2, ![1024, 1]⟩
abbrev S1024x64 : Shape := ⟨2, ![1024, 64]⟩
abbrev S1024x32 : Shape := ⟨2, ![1024, 32]⟩
abbrev S8x10 : Shape := ⟨2, ![8, 10]⟩

abbrev nBuf : Space → Nat
  | .hbm => 18
  | .vmem => 14
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S8x1024, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S10x32, .f32⟩
  | .hbm, ⟨8, _⟩ => ⟨S10, .f32⟩
  | .hbm, ⟨9, _⟩ => ⟨S128x64, .f32⟩
  | .hbm, ⟨10, _⟩ => ⟨S64x32, .f32⟩
  | .hbm, ⟨11, _⟩ => ⟨S32x10, .f32⟩
  | .hbm, ⟨12, _⟩ => ⟨S1x64, .f32⟩
  | .hbm, ⟨13, _⟩ => ⟨S1x32, .f32⟩
  | .hbm, ⟨14, _⟩ => ⟨S1x10, .f32⟩
  | .hbm, ⟨15, _⟩ => ⟨S8x1x1024, .f32⟩
  | .hbm, ⟨16, _⟩ => ⟨S8x1x10, .f32⟩
  | .hbm, ⟨17, _⟩ => ⟨S8x10, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S128x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x10, .f32⟩
  | .local _ .vmem, ⟨11, _⟩ => ⟨S1x10, .f32⟩
  | .local _ .vmem, ⟨12, _⟩ => ⟨S1x1x10, .f32⟩
  | .local _ .vmem, ⟨13, _⟩ => ⟨S1x1x10, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x128_S128x64_1_0 : S64x128.Transposes [1, 0] S128x64
  transposes_S32x64_S64x32_1_0 : S32x64.Transposes [1, 0] S64x32
  transposes_S10x32_S32x10_1_0 : S10x32.Transposes [1, 0] S32x10
  shapeCasts_S64_S1x64 : S64.ShapeCasts S1x64
  shapeCasts_S32_S1x32 : S32.ShapeCasts S1x32
  shapeCasts_S10_S1x10 : S10.ShapeCasts S1x10
  shapeCasts_S8x1024_S8x1x1024 : S8x1024.ShapeCasts S8x1x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1024x1 : S1x1024.ShapeCasts S1024x1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  concatenates_S1024x64_S1024x64_S1024x128_d1 : Shape.Concatenates [S1024x64, S1024x64] S1024x128 1
  slices_S1024x128_o0_0_S1024x64 : S1024x128.Slices ![0, 0] S1024x64
  slices_S1024x128_o0_64_S1024x64 : S1024x128.Slices ![0, 64] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  broadcasts_S1024x1_S1024x64 : S1024x1.Broadcasts S1024x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  concatenates_S1024x32_S1024x32_S1024x64_d1 : Shape.Concatenates [S1024x32, S1024x32] S1024x64 1
  slices_S1024x64_o0_0_S1024x32 : S1024x64.Slices ![0, 0] S1024x32
  slices_S1024x64_o0_32_S1024x32 : S1024x64.Slices ![0, 32] S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  broadcasts_S1024x1_S1024x32 : S1024x1.Broadcasts S1024x32
  reduces_S1024x32_S32 : S1024x32.Reduces [0] S32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  shapeCasts_S8x1x10_S8x10 : S8x1x10.ShapeCasts S8x10
  dot_S1024x128_S128x64_S1024x64_1_0_0_1_n_n_wf : DotDims.WF S1024x128 S128x64 S1024x64 [1] [0] [0] [1] [] []
  dot_S1024x1024_S1024x128_S1024x128_1_0_0_1_n_n_wf : DotDims.WF S1024x1024 S1024x128 S1024x128 [1] [0] [0] [1] [] []
  dot_S1024x64_S64x32_S1024x32_1_0_0_1_n_n_wf : DotDims.WF S1024x64 S64x32 S1024x32 [1] [0] [0] [1] [] []
  dot_S1024x1024_S1024x64_S1024x64_1_0_0_1_n_n_wf : DotDims.WF S1024x1024 S1024x64 S1024x64 [1] [0] [0] [1] [] []
  dot_S1x32_S32x10_S1x10_1_0_0_1_n_n_wf : DotDims.WF S1x32 S32x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .f32 = 32 ∨ (Rect.block (s := S8x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x10.size a ≤ S32x10.size a
  hwx0_7 : ∀ i : grid0.Coords, EltTy.bits .f32 = 32 ∨ (Rect.block (s := S32x10) S32x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x10.size a ≤ S8x1x10.size a
  hwx0_9 : ∀ i : grid0.Coords, EltTy.bits .f32 = 32 ∨ (Rect.block (s := S8x1x10) S1x1x10.size (cc0_transform_9 i) (hinb0_9 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1x32_S32x10_S1x10_1_0_0_1_n_n : DotDims S1x32 S32x10 S1x10 where
  lhsContracting := [1]
  rhsContracting := [0]
  lhsNonContracting := [0]
  rhsNonContracting := [1]
  lhsBatch := []
  rhsBatch := []
  wf := dot_S1x32_S32x10_S1x10_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S32x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S8192x128 : Shape := ⟨2, ![8192, 128]⟩
abbrev S8192x1 : Shape := ⟨2, ![8192, 1]⟩
abbrev S128x64 : Shape := ⟨2, ![128, 64]⟩
abbrev S8192x64 : Shape := ⟨2, ![8192, 64]⟩
abbrev S1x64 : Shape := ⟨2, ![1, 64]⟩
abbrev S8x1024x64 : Shape := ⟨3, ![8, 1024, 64]⟩
abbrev S64x32 : Shape := ⟨2, ![64, 32]⟩
abbrev S8192x32 : Shape := ⟨2, ![8192, 32]⟩
abbrev S1x32 : Shape := ⟨2, ![1, 32]⟩
abbrev S8x1024x32 : Shape := ⟨3, ![8, 1024, 32]⟩
abbrev S_ : Shape := ⟨0, ![]⟩
abbrev S8x32 : Shape := ⟨2, ![8, 32]⟩
abbrev S32x10 : Shape := ⟨2, ![32, 10]⟩
abbrev S8x10 : Shape := ⟨2, ![8, 10]⟩
abbrev S1x10 : Shape := ⟨2, ![1, 10]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S8x1024, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S10x32, .f32⟩
  | .hbm, ⟨8, _⟩ => ⟨S10, .f32⟩
  | .hbm, ⟨9, _⟩ => ⟨S8192x128, .f32⟩
  | .hbm, ⟨10, _⟩ => ⟨S8192x1, .f32⟩
  | .hbm, ⟨11, _⟩ => ⟨S8x1024x128, .f32⟩
  | .hbm, ⟨12, _⟩ => ⟨S8x1024x128, .f32⟩
  | .hbm, ⟨13, _⟩ => ⟨S8192x128, .f32⟩
  | .hbm, ⟨14, _⟩ => ⟨S128x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8x1024x64, .f32⟩
  | .hbm, ⟨22, _⟩ => ⟨S8x1024x64, .f32⟩
  | .hbm, ⟨23, _⟩ => ⟨S8192x64, .f32⟩
  | .hbm, ⟨24, _⟩ => ⟨S64x32, .f32⟩
  | .hbm, ⟨25, _⟩ => ⟨S8192x32, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8x1024x32, .f32⟩
  | .hbm, ⟨32, _⟩ => ⟨S_, .f32⟩
  | .hbm, ⟨33, _⟩ => ⟨S8x32, .f32⟩
  | .hbm, ⟨34, _⟩ => ⟨S32x10, .f32⟩
  | .hbm, ⟨35, _⟩ => ⟨S8x10, .f32⟩
  | .hbm, ⟨36, _⟩ => ⟨S1x10, .f32⟩
  | .hbm, ⟨37, _⟩ => ⟨S8x10, .f32⟩
  | .hbm, ⟨38, _⟩ => ⟨S8x10, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S8x1024x128_S8192x128 : S8x1024x128.ShapeCasts S8192x128
  shapeCasts_S8x1024_S8192x1 : S8x1024.ShapeCasts S8192x1
  shapeCasts_S8192x128_S8x1024x128 : S8192x128.ShapeCasts S8x1024x128
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S8192x1_S8192x64_0_1 : S8192x1.BroadcastsInDim S8192x64 (![0, 1] : Fin 2 → Fin S8192x64.rank)
  shapeCasts_S8192x64_S8x1024x64 : S8192x64.ShapeCasts S8x1024x64
  shapeCasts_S8x1024x64_S8192x64 : S8x1024x64.ShapeCasts S8192x64
  transposes_S32x64_S64x32_1_0 : S32x64.Transposes [1, 0] S64x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S8192x1_S8192x32_0_1 : S8192x1.BroadcastsInDim S8192x32 (![0, 1] : Fin 2 → Fin S8192x32.rank)
  shapeCasts_S8192x32_S8x1024x32 : S8192x32.ShapeCasts S8x1024x32
  reducesTo_S8x1024x32_S8x32_d1 : S8x1024x32.ReducesTo [1] S8x32
  h_S_ : 0 < S_.numel
  transposes_S10x32_S32x10_1_0 : S10x32.Transposes [1, 0] S32x10
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  dot_S8x1024x1024_S8x1024x128_S8x1024x128_2_1_1_2_0_0_wf : DotDims.WF S8x1024x1024 S8x1024x128 S8x1024x128 [2] [1] [1] [2] [0] [0]
  dot_S8192x128_S128x64_S8192x64_1_0_0_1_n_n_wf : DotDims.WF S8192x128 S128x64 S8192x64 [1] [0] [0] [1] [] []
  dot_S8x1024x1024_S8x1024x64_S8x1024x64_2_1_1_2_0_0_wf : DotDims.WF S8x1024x1024 S8x1024x64 S8x1024x64 [2] [1] [1] [2] [0] [0]
  dot_S8192x64_S64x32_S8192x32_1_0_0_1_n_n_wf : DotDims.WF S8192x64 S64x32 S8192x32 [1] [0] [0] [1] [] []
  dot_S8x32_S32x10_S8x10_1_0_0_1_n_n_wf : DotDims.WF S8x32 S32x10 S8x10 [1] [0] [0] [1] [] []

variable [Facts₀]

def dot_S8x1024x1024_S8x1024x128_S8x1024x128_2_1_1_2_0_0 : DotDims S8x1024x1024 S8x1024x128 S8x1024x128 where
  lhsContracting := [2]
  rhsContracting := [1]
  lhsNonContracting := [1]
  rhsNonContracting := [2]
  lhsBatch := [0]
  rhsBatch := [0]
  wf := dot_S8x1024x1024_S8x1024x128_S8x1024x128_2_1_1_2_0_0_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8x32_S32x10_S8x10_1_0_0_1_n_n : DotDims S8x32 S32x10 S8x10 where
  lhsContracting := [1]
  rhsContracting := [0]
  lhsNonContracting := [0]
  rhsNonContracting := [1]
  lhsBatch := []
  rhsBatch := []
  wf := dot_S8x32_S32x10_S8x10_1_0_0_1_n_n_wf

class Facts : Prop extends Facts₀ where

variable [Facts]
-- ==== Proof.Spec.lean ====
/-
  The value both programs compute, stated once, index by index, over the extended reals.

  One graph-convolution layer takes node features h (1024 nodes, d features each), a dense adjacency, a weight
  W (e × d), a bias and a node mask, and gives  ((adj · h) · Wᵀ + bias) ⊙ mask.  The reference aggregates over
  the neighbours first and projects afterwards (`layerRef`).  The kernel projects first, p = h · Wᵀ, and then
  aggregates p together with the residue p − p of its two-way split (`layerKer`).  Two layers (128 → 64 → 32),
  a maximum over the nodes from −∞, and a last linear map 32 → 10 make the result (`result`), per batch entry.
-/
import Idealize.ShloMosaic.Lib.ValueIdx
import Idealize.ShloMosaic.PureOps.Ideal

noncomputable section

namespace Cert.Gcn

open Idealize.ShloMosaic Idealize.ShloMosaic.ValueIdx

/-- The value the maximum over the nodes starts from: the pattern of −∞. -/
abbrev poolInit : EReal := FloatOps.ofBits (F := Ideal) .f32 0xFF800000#32

/-- A layer in the reference's order: the neighbours' features are summed first, the sum is projected by W. -/
def layerRef {d e : ℕ} (adj : Fin 1024 → Fin 1024 → EReal) (h : Fin 1024 → Fin d → EReal) (W : Fin e → Fin d → EReal)
    (bias : Fin e → EReal) (mask : Fin 1024 → EReal) (n : Fin 1024) (k : Fin e) : EReal :=
  ((∑ f : Fin d, (∑ j : Fin 1024, adj n j * h j f) * W k f) + bias k) * mask n

/-- A layer in the kernel's order: each node's features are projected first, p j = ∑ f, h j f · W k f, and the
    neighbours' projections are summed; beside that sum stands the sum of the residues p j − p j. -/
def layerKer {d e : ℕ} (adj : Fin 1024 → Fin 1024 → EReal) (h : Fin 1024 → Fin d → EReal) (W : Fin e → Fin d → EReal)
    (bias : Fin e → EReal) (mask : Fin 1024 → EReal) (n : Fin 1024) (k : Fin e) : EReal :=
  ((∑ j : Fin 1024, adj n j * (∑ f : Fin d, h j f * W k f))
    + (∑ j : Fin 1024, adj n j * ((∑ f : Fin d, h j f * W k f) - (∑ f : Fin d, h j f * W k f))) + bias k) * mask n

/-- The head: each feature's maximum over the nodes, then the last linear map. -/
def head (h : Fin 1024 → Fin 32 → EReal) (W : Fin 10 → Fin 32 → EReal) (bias : Fin 10 → EReal) (o : Fin 10) : EReal :=
  (∑ l : Fin 32, (Finset.univ : Finset (Fin 1024)).fold max poolInit (fun n => h n l) * W o l) + bias o

/-- The whole network at batch entry b and output o, over a layer given as a parameter. -/
def network
    (layer : ∀ {d e : ℕ}, (Fin 1024 → Fin 1024 → EReal) → (Fin 1024 → Fin d → EReal) → (Fin e → Fin d → EReal) →
      (Fin e → EReal) → (Fin 1024 → EReal) → Fin 1024 → Fin e → EReal)
    (x : (⟨3, ![8, 1024, 128]⟩ : Shape).Idx → EReal) (adj : (⟨3, ![8, 1024, 1024]⟩ : Shape).Idx → EReal)
    (mask : (⟨2, ![8, 1024]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (Wfc : (⟨2, ![10, 32]⟩ : Shape).Idx → EReal)
    (bfc : (⟨1, ![10]⟩ : Shape).Idx → EReal) (b : Fin 8) (o : Fin 10) : EReal :=
  head
    (layer (fun n j => adj (ix3 b n j))
      (layer (fun n j => adj (ix3 b n j)) (fun n f => x (ix3 b n f)) (fun k f => W1 (ix2 k f)) (fun k => b1 (ix1 k))
        (fun n => mask (ix2 b n)))
      (fun l k => W2 (ix2 l k)) (fun l => b2 (ix1 l)) (fun n => mask (ix2 b n)))
    (fun o l => Wfc (ix2 o l)) (fun o => bfc (ix1 o)) o

/-- The reference's result array [8, 10]. -/
def resultRef (x : (⟨3, ![8, 1024, 128]⟩ : Shape).Idx → EReal) (adj : (⟨3, ![8, 1024, 1024]⟩ : Shape).Idx → EReal)
    (mask : (⟨2, ![8, 1024]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (Wfc : (⟨2, ![10, 32]⟩ : Shape).Idx → EReal)
    (bfc : (⟨1, ![10]⟩ : Shape).Idx → EReal) : (⟨2, ![8, 10]⟩ : Shape).Idx → EReal :=
  fun i => network (fun {d e} => layerRef (d := d) (e := e)) x adj mask W1 b1 W2 b2 Wfc bfc (i 0) (i 1)

/-- The kernel's result array [8, 10]. -/
def resultKer (x : (⟨3, ![8, 1024, 128]⟩ : Shape).Idx → EReal) (adj : (⟨3, ![8, 1024, 1024]⟩ : Shape).Idx → EReal)
    (mask : (⟨2, ![8, 1024]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (Wfc : (⟨2, ![10, 32]⟩ : Shape).Idx → EReal)
    (bfc : (⟨1, ![10]⟩ : Shape).Idx → EReal) : (⟨2, ![8, 10]⟩ : Shape).Idx → EReal :=
  fun i => network (fun {d e} => layerKer (d := d) (e := e)) x adj mask W1 b1 W2 b2 Wfc bfc (i 0) (i 1)

/-- An array of extended reals all of whose entries are real numbers. -/
def IsReal {ι : Type} (x : ι → EReal) : Prop := ∃ r : ι → ℝ, x = fun i => ((r i : ℝ) : EReal)

end Cert.Gcn

end
-- ==== Proof.Algebra.lean ====
/-
  On real entries a graph-convolution layer in the kernel's order equals the layer in the reference's order.

  Over the extended reals multiplication does not distribute over addition at the infinities, so the
  rearrangement is done over ℝ: each layer, fed with real arrays, is the image of one real number
  (`layerR`), and the two orders of summation agree in ℝ by distributivity and by exchanging two finite sums.
  The residue p − p of a real p is 0, its product with any real is 0, and a sum of zeros is 0.
  The head is the same expression on both sides, so its weights may be arbitrary extended reals.
-/
import proofs.«145852_g65240553226756_cont_9to1_m_603_8_alg».proof.Proof.Spec
import Mathlib.Data.EReal.Operations
import Mathlib.Algebra.BigOperators.Ring.Finset

noncomputable section

namespace Cert.Gcn

open Idealize.ShloMosaic Idealize.ShloMosaic.ValueIdx

namespace RealLayer

/-- The inclusion of ℝ in the extended reals commutes with finite sums. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- One layer over the real numbers, in the reference's order of summation. -/
def layerR {d e : ℕ} (a : Fin 1024 → Fin 1024 → ℝ) (h : Fin 1024 → Fin d → ℝ) (W : Fin e → Fin d → ℝ)
    (bias : Fin e → ℝ) (mk : Fin 1024 → ℝ) (n : Fin 1024) (k : Fin e) : ℝ :=
  ((∑ f : Fin d, (∑ j : Fin 1024, a n j * h j f) * W k f) + bias k) * mk n

/-- In ℝ the two orders agree: ∑ j, a j · (∑ f, h j f · w f) = ∑ f, (∑ j, a j · h j f) · w f. -/
theorem sum_mul_sum_comm {d : ℕ} (a : Fin 1024 → ℝ) (h : Fin 1024 → Fin d → ℝ) (w : Fin d → ℝ) :
    (∑ j : Fin 1024, a j * (∑ f : Fin d, h j f * w f)) = ∑ f : Fin d, (∑ j : Fin 1024, a j * h j f) * w f := by
  simp only [Finset.mul_sum, Finset.sum_mul]
  rw [Finset.sum_comm]
  refine Finset.sum_congr rfl fun f _ => Finset.sum_congr rfl fun j _ => ?_
  ring

/-- The reference's layer on real arrays is the image of the real layer. -/
theorem layerRef_coe {d e : ℕ} (a : Fin 1024 → Fin 1024 → ℝ) (h : Fin 1024 → Fin d → ℝ) (W : Fin e → Fin d → ℝ)
    (bias : Fin e → ℝ) (mk : Fin 1024 → ℝ) :
    layerRef (fun n j => ((a n j : ℝ) : EReal)) (fun j f => ((h j f : ℝ) : EReal)) (fun k f => ((W k f : ℝ) : EReal))
        (fun k => ((bias k : ℝ) : EReal)) (fun n => ((mk n : ℝ) : EReal))
      = fun n k => ((layerR a h W bias mk n k : ℝ) : EReal) := by
  funext n k
  simp only [layerRef, layerR, EReal.coe_mul, EReal.coe_add, coe_finset_sum]

/-- The kernel's layer on real arrays is the image of the same real layer: the residues vanish and the
    two sums are exchanged in ℝ. -/
theorem layerKer_coe {d e : ℕ} (a : Fin 1024 → Fin 1024 → ℝ) (h : Fin 1024 → Fin d → ℝ) (W : Fin e → Fin d → ℝ)
    (bias : Fin e → ℝ) (mk : Fin 1024 → ℝ) :
    layerKer (fun n j => ((a n j : ℝ) : EReal)) (fun j f => ((h j f : ℝ) : EReal)) (fun k f => ((W k f : ℝ) : EReal))
        (fun k => ((bias k : ℝ) : EReal)) (fun n => ((mk n : ℝ) : EReal))
      = fun n k => ((layerR a h W bias mk n k : ℝ) : EReal) := by
  funext n k
  have hR : layerR a h W bias mk n k
      = ((∑ j : Fin 1024, a n j * (∑ f : Fin d, h j f * W k f))
          + (∑ j : Fin 1024, a n j * ((∑ f : Fin d, h j f * W k f) - (∑ f : Fin d, h j f * W k f))) + bias k) * mk n := by
    simp only [layerR, sub_self, mul_zero, Finset.sum_const_zero, add_zero, sum_mul_sum_comm]
  rw [hR]
  simp only [layerKer, EReal.coe_mul, EReal.coe_add, EReal.coe_sub, coe_finset_sum]

/-- On real arrays the two layers are the same function. -/
theorem layerKer_eq_layerRef_coe {d e : ℕ} (a : Fin 1024 → Fin 1024 → ℝ) (h : Fin 1024 → Fin d → ℝ)
    (W : Fin e → Fin d → ℝ) (bias : Fin e → ℝ) (mk : Fin 1024 → ℝ) :
    layerKer (fun n j => ((a n j : ℝ) : EReal)) (fun j f => ((h j f : ℝ) : EReal)) (fun k f => ((W k f : ℝ) : EReal))
        (fun k => ((bias k : ℝ) : EReal)) (fun n => ((mk n : ℝ) : EReal))
      = layerRef (fun n j => ((a n j : ℝ) : EReal)) (fun j f => ((h j f : ℝ) : EReal))
          (fun k f => ((W k f : ℝ) : EReal)) (fun k => ((bias k : ℝ) : EReal)) (fun n => ((mk n : ℝ) : EReal)) := by
  rw [layerKer_coe, layerRef_coe]

end RealLayer

open RealLayer in
/-- With real inputs, adjacency, mask and layer weights, the network in the kernel's order of summation
    and the network in the reference's order give the same result array. -/
theorem resultKer_eq_resultRef
    (x : (⟨3, ![8, 1024, 128]⟩ : Shape).Idx → EReal) (adj : (⟨3, ![8, 1024, 1024]⟩ : Shape).Idx → EReal)
    (mask : (⟨2, ![8, 1024]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (Wfc : (⟨2, ![10, 32]⟩ : Shape).Idx → EReal)
    (bfc : (⟨1, ![10]⟩ : Shape).Idx → EReal)
    (hx : IsReal x) (hadj : IsReal adj) (hmask : IsReal mask) (hW1 : IsReal W1) (hb1 : IsReal b1)
    (hW2 : IsReal W2) (hb2 : IsReal b2) :
    resultKer x adj mask W1 b1 W2 b2 Wfc bfc = resultRef x adj mask W1 b1 W2 b2 Wfc bfc := by
  obtain ⟨rx, rfl⟩ := hx
  obtain ⟨radj, rfl⟩ := hadj
  obtain ⟨rmask, rfl⟩ := hmask
  obtain ⟨rW1, rfl⟩ := hW1
  obtain ⟨rb1, rfl⟩ := hb1
  obtain ⟨rW2, rfl⟩ := hW2
  obtain ⟨rb2, rfl⟩ := hb2
  funext i
  simp only [resultKer, resultRef, network]
  -- the inner layer: both orders give the image of the real layer
  rw [layerKer_coe (fun n j => radj (ix3 (i 0) n j)) (fun n f => rx (ix3 (i 0) n f)) (fun k f => rW1 (ix2 k f))
        (fun k => rb1 (ix1 k)) (fun n => rmask (ix2 (i 0) n)),
      layerRef_coe (fun n j => radj (ix3 (i 0) n j)) (fun n f => rx (ix3 (i 0) n f)) (fun k f => rW1 (ix2 k f))
        (fun k => rb1 (ix1 k)) (fun n => rmask (ix2 (i 0) n))]
  -- the outer layer, fed with that real array
  rw [layerKer_eq_layerRef_coe (fun n j => radj (ix3 (i 0) n j)) _ (fun l k => rW2 (ix2 l k))
        (fun l => rb2 (ix1 l)) (fun n => rmask (ix2 (i 0) n))]

end Cert.Gcn

end
-- ==== Proof.Finite.lean ====
/-
  Finiteness of the nine inputs, drawn from the precondition.

  The precondition is a conjunction of nine tests, one per input array: every entry x of the array has
  |x| < +∞.  Each test is a reduction by "and" of an array of truth values down to a single word, and the nine
  words are joined by "and" again.  If the whole conjunction is 1, every one of the nine reductions is 1, hence
  every single comparison is 1.  Over the extended reals |x| is max x (−x) and the pattern 0x7F800000 is ⊤, so
  the comparison says max x (−x) < ⊤: the entry is neither ⊤ nor ⊥, that is, it is a real number.
-/
import proofs.«145852_g65240553226756_cont_9to1_m_603_8_alg».proof.Pre_finite_inputs
import proofs.«145852_g65240553226756_cont_9to1_m_603_8_alg».proof.Proof.Gen.Pre_finite_inputs
import proofs.«145852_g65240553226756_cont_9to1_m_603_8_alg».proof.Proof.Spec
import Idealize.ShloMosaic.Lib.ReduceAll

noncomputable section

namespace Cert.Gcn

open Idealize.ShloMosaic Idealize.ShloMosaic.ValueIdx

/-- The pattern of +∞ denotes the top of the extended reals. -/
theorem inf_pattern : (FloatOps.ofBits (F := Ideal) .f32 0x7F800000#32 : EReal) = ⊤ := by
  show Ideal.ofBits .f32 0x7F800000#32 = ⊤
  simp [Ideal.ofBits, Ideal.ieee]

/-- An extended real whose absolute value max a (−a) lies below ⊤ is a real number: ⊤ fails at once, and for ⊥
    the negation is ⊤. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the comparison |a| < +∞ answering 1 makes a real. -/
theorem real_of_cmp (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  apply real_of_abs_lt_top
  rw [inf_pattern] at h
  change BitVec.ofBool (decide (max a (-a) < ⊤)) = 1#1 at h
  by_contra hn
  simp [hn] at h

/-- The result shape of a full reduction has a single index. -/
instance : Subsingleton Cert.Pre_finite_inputs.S_.Idx := ⟨fun a b => funext fun d => d.elim0⟩

/-- The generic step: an array whose every entry passes the test |x| < +∞ consists of real numbers. -/
theorem isReal_of_entries {s : Shape} (x : FVec Ideal s .f32)
    (hx : ∀ i : s.Idx, FloatOps.cmpf (F := Ideal) (φ := .f32) .olt (FloatOps.hostAbsf (F := Ideal) (φ := .f32) (x i))
      (FloatOps.ofBits (F := Ideal) .f32 0x7F800000#32) = 1#1) :
    IsReal x := by
  choose r hr using fun i => real_of_cmp (x i) (hx i)
  exact ⟨r, funext hr⟩

theorem isReal_of_pre [Cert.Pre_finite_inputs.Facts]
    (x0 : FVec Ideal Cert.Pre_finite_inputs.S8x1024x128 .f32) (x1 : FVec Ideal Cert.Pre_finite_inputs.S8x1024x1024 .f32)
    (x2 : FVec Ideal Cert.Pre_finite_inputs.S8x1024 .f32) (x3 : FVec Ideal Cert.Pre_finite_inputs.S64x128 .f32)
    (x4 : FVec Ideal Cert.Pre_finite_inputs.S64 .f32) (x5 : FVec Ideal Cert.Pre_finite_inputs.S32x64 .f32)
    (x6 : FVec Ideal Cert.Pre_finite_inputs.S32 .f32) (x7 : FVec Ideal Cert.Pre_finite_inputs.S10x32 .f32)
    (x8 : FVec Ideal Cert.Pre_finite_inputs.S10 .f32)
    (h : Cert.Pre_finite_inputs.fn (F := Ideal) x0 x1 x2 x3 x4 x5 x6 x7 x8 = fun _ => 1#1) :
    IsReal x0 ∧ IsReal x1 ∧ IsReal x2 ∧ IsReal x3 ∧ IsReal x4 ∧ IsReal x5 ∧ IsReal x6 ∧ IsReal x7 ∧ IsReal x8 := by
  have h0 := congrFun h ValueIdx.ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_entries x0 (Host.reduce_andi_all _ _ _ _ _ e0),
    isReal_of_entries x1 (Host.reduce_andi_all _ _ _ _ _ e1),
    isReal_of_entries x2 (Host.reduce_andi_all _ _ _ _ _ e2),
    isReal_of_entries x3 (Host.reduce_andi_all _ _ _ _ _ e3),
    isReal_of_entries x4 (Host.reduce_andi_all _ _ _ _ _ e4),
    isReal_of_entries x5 (Host.reduce_andi_all _ _ _ _ _ e5),
    isReal_of_entries x6 (Host.reduce_andi_all _ _ _ _ _ e6),
    isReal_of_entries x7 (Host.reduce_andi_all _ _ _ _ _ e7),
    isReal_of_entries x8 (Host.reduce_andi_all _ _ _ _ _ e8)⟩

end Cert.Gcn

end
-- ==== Proof.RefValue.lean ====
/-
  The reference computes the specified value.

  Read one element at a time, the reference is: aggregate the features over the neighbours, project by the first
  weight, add the bias and multiply by the mask; the same again over that layer's output with the second weight;
  take each feature's maximum over the 1024 nodes starting from −∞; apply the last linear map and add its bias.
  The arrays of 8·1024 rows hold node n of batch entry b at row b·1024 + n, so every reshape between the
  [8, 1024, _] and the [8192, _] layouts is a quotient and a remainder by 1024 of that row, and the transposes and
  broadcasts only permute or forget coordinates.  Each lemma below states one stage at explicit coordinates; the
  last one assembles them into the network of the specification with the reference's order inside a layer.
-/
import proofs.«145852_g65240553226756_cont_9to1_m_603_8_alg».proof.Proof.Gen.ReferenceIdeal.Read
import proofs.«145852_g65240553226756_cont_9to1_m_603_8_alg».proof.Proof.Spec

noncomputable section

namespace Cert.Gcn

open Cert.ReferenceIdeal Cert.ReferenceIdeal.Gen Cert.ReferenceIdeal.Read Idealize.ShloMosaic Idealize.ShloMosaic.ValueIdx

/-- The flat row of node n of batch entry b in the [8192, _] arrays. -/
abbrev row (b : Fin 8) (n : Fin 1024) : Fin 8192 := ⟨b.val * 1024 + n.val, by have := b.isLt; have := n.isLt; omega⟩

section Stages

variable (x0 : (⟨S8x1024x128, .f32⟩ : BufTy).Contents (Elt Ideal)) (x1 : (⟨S8x1024x1024, .f32⟩ : BufTy).Contents (Elt Ideal))
  (x2 : (⟨S8x1024, .f32⟩ : BufTy).Contents (Elt Ideal)) (x3 : (⟨S64x128, .f32⟩ : BufTy).Contents (Elt Ideal))
  (x4 : (⟨S64, .f32⟩ : BufTy).Contents (Elt Ideal)) (x5 : (⟨S32x64, .f32⟩ : BufTy).Contents (Elt Ideal))
  (x6 : (⟨S32, .f32⟩ : BufTy).Contents (Elt Ideal)) (x7 : (⟨S10x32, .f32⟩ : BufTy).Contents (Elt Ideal))
  (x8 : (⟨S10, .f32⟩ : BufTy).Contents (Elt Ideal))

/-! ## The first layer -/

/-- Flattening the features to [8192, 128] and unflattening again reads the same element. -/
theorem v2_at (b : Fin 8) (n : Fin 1024) (f : Fin 128) :
    val_main_v2 (F := Ideal) x0 (ix3 b n f) = x0 (ix3 b n f) := by
  rw [val_main_v2_apply, val_main_v0_apply]
  congr 1
  funext a
  have hb := b.isLt; have hn := n.isLt; have hf := f.isLt
  match a with
  | ⟨0, _⟩ => refine Fin.ext ?_; show (((b.val * 1024 + n.val) * 128 + f.val) / 128 * 128 + ((b.val * 1024 + n.val) * 128 + f.val) % 128) / 131072 = b.val; omega
  | ⟨1, _⟩ => refine Fin.ext ?_; show (((b.val * 1024 + n.val) * 128 + f.val) / 128 * 128 + ((b.val * 1024 + n.val) * 128 + f.val) % 128) / 128 % 1024 = n.val; omega
  | ⟨2, _⟩ => refine Fin.ext ?_; show (((b.val * 1024 + n.val) * 128 + f.val) / 128 * 128 + ((b.val * 1024 + n.val) * 128 + f.val) % 128) % 128 = f.val; omega

/-- The aggregation over the neighbours, per batch entry. -/
theorem v3_at (b : Fin 8) (n : Fin 1024) (f : Fin 128) :
    val_main_v3 (F := Ideal) x0 x1 (ix3 b n f) = ∑ j : Fin 1024, x1 (ix3 b n j) * x0 (ix3 b j f) := by
  rw [val_main_v3_apply]
  refine Finset.sum_congr rfl fun j _ => ?_
  have el : lidx_main_v3 (ix3 b n f) j = ix3 b n j := funext fun a => by
    match a with
    | ⟨0, _⟩ => rfl
    | ⟨1, _⟩ => rfl
    | ⟨2, _⟩ => rfl
  have er : ridx_main_v3 (ix3 b n f) j = ix3 b j f := funext fun a => by
    match a with
    | ⟨0, _⟩ => rfl
    | ⟨1, _⟩ => rfl
    | ⟨2, _⟩ => rfl
  rw [el, er, v2_at]

/-- The aggregated features in the flat [8192, 128] layout. -/
theorem v4_at (b : Fin 8) (n : Fin 1024) (f : Fin 128) :
    val_main_v4 (F := Ideal) x0 x1 (ix2 (row b n) f) = ∑ j : Fin 1024, x1 (ix3 b n j) * x0 (ix3 b j f) := by
  rw [val_main_v4_apply]
  have e : idx_main_v4 (ix2 (row b n) f) = ix3 b n f := funext fun a => Fin.ext (by
    have hb := b.isLt; have hn := n.isLt; have hf := f.isLt
    match a with
    | ⟨0, _⟩ => show ((b.val * 1024 + n.val) * 128 + f.val) / 131072 = b.val; omega
    | ⟨1, _⟩ => show ((b.val * 1024 + n.val) * 128 + f.val) / 128 % 1024 = n.val; omega
    | ⟨2, _⟩ => show ((b.val * 1024 + n.val) * 128 + f.val) % 128 = f.val; omega)
  rw [e, v3_at]

/-- The transposed first weight. -/
theorem v5_at (f : Fin 128) (k : Fin 64) : val_main_v5 (F := Ideal) x3 (ix2 f k) = x3 (ix2 k f) := by
  rw [val_main_v5_apply]
  congr 1
  funext a
  match a with
  | ⟨0, _⟩ => rfl
  | ⟨1, _⟩ => rfl

/-- The projection of the aggregated features. -/
theorem v6_at (b : Fin 8) (n : Fin 1024) (k : Fin 64) :
    val_main_v6 (F := Ideal) x0 x1 x3 (ix2 (row b n) k)
      = ∑ f : Fin 128, (∑ j : Fin 1024, x1 (ix3 b n j) * x0 (ix3 b j f)) * x3 (ix2 k f) := by
  rw [val_main_v6_apply]
  refine Finset.sum_congr rfl fun f _ => ?_
  have el : lidx_main_v6 (ix2 (row b n) k) f = ix2 (row b n) f := funext fun a => by
    match a with
    | ⟨0, _⟩ => rfl
    | ⟨1, _⟩ => rfl
  have er : ridx_main_v6 (ix2 (row b n) k) f = ix2 f k := funext fun a => by
    match a with
    | ⟨0, _⟩ => rfl
    | ⟨1, _⟩ => rfl
  rw [el, er, v4_at, v5_at]

/-- The first bias, broadcast over the rows. -/
theorem v8_at (r : Fin 8192) (k : Fin 64) : val_main_v8 (F := Ideal) x4 (ix2 r k) = x4 (ix1 k) := by
  rw [val_main_v8_apply, val_main_v7_apply]
  congr 1
  funext a
  match a with
  | ⟨0, _⟩ => rfl

/-- The mask, broadcast over the 64 features. -/
theorem v10_at (b : Fin 8) (n : Fin 1024) (k : Fin 64) :
    val_main_v10 (F := Ideal) x2 (ix2 (row b n) k) = x2 (ix2 b n) := by
  rw [val_main_v10_apply, val_main_v1_apply]
  congr 1
  funext a
  have hb := b.isLt; have hn := n.isLt
  match a with
  | ⟨0, _⟩ => refine Fin.ext ?_; show ((b.val * 1024 + n.val) * 1 + 0) / 1024 = b.val; omega
  | ⟨1, _⟩ => refine Fin.ext ?_; show ((b.val * 1024 + n.val) * 1 + 0) % 1024 = n.val; omega

/-- The first layer's output at row b·1024 + n is the layer of the specification at node n of batch entry b. -/
theorem layer1_at (b : Fin 8) (n : Fin 1024) (k : Fin 64) :
    val_main_v11 (F := Ideal) x0 x1 x2 x3 x4 (ix2 (row b n) k)
      = layerRef (fun n j => x1 (ix3 b n j)) (fun n f => x0 (ix3 b n f)) (fun k f => x3 (ix2 k f)) (fun k => x4 (ix1 k))
          (fun n => x2 (ix2 b n)) n k := by
  rw [val_main_v11_apply, val_main_v9_apply, v6_at, v8_at, v10_at]
  rfl

end Stages

section Stages2

variable (x0 : (⟨S8x1024x128, .f32⟩ : BufTy).Contents (Elt Ideal)) (x1 : (⟨S8x1024x1024, .f32⟩ : BufTy).Contents (Elt Ideal))
  (x2 : (⟨S8x1024, .f32⟩ : BufTy).Contents (Elt Ideal)) (x3 : (⟨S64x128, .f32⟩ : BufTy).Contents (Elt Ideal))
  (x4 : (⟨S64, .f32⟩ : BufTy).Contents (Elt Ideal)) (x5 : (⟨S32x64, .f32⟩ : BufTy).Contents (Elt Ideal))
  (x6 : (⟨S32, .f32⟩ : BufTy).Contents (Elt Ideal)) (x7 : (⟨S10x32, .f32⟩ : BufTy).Contents (Elt Ideal))
  (x8 : (⟨S10, .f32⟩ : BufTy).Contents (Elt Ideal))

/-! ## The second layer -/

/-- The first layer's output, unflattened to [8, 1024, 64]. -/
theorem v12_at (b : Fin 8) (n : Fin 1024) (k : Fin 64) :
    val_main_v12 (F := Ideal) x0 x1 x2 x3 x4 (ix3 b n k) = val_main_v11 (F := Ideal) x0 x1 x2 x3 x4 (ix2 (row b n) k) := by
  rw [val_main_v12_apply]
  congr 1
  funext a
  have hb := b.isLt; have hn := n.isLt; have hk := k.isLt
  match a with
  | ⟨0, _⟩ => refine Fin.ext ?_; show ((b.val * 1024 + n.val) * 64 + k.val) / 64 = b.val * 1024 + n.val; omega
  | ⟨1, _⟩ => refine Fin.ext ?_; show ((b.val * 1024 + n.val) * 64 + k.val) % 64 = k.val; omega

/-- The second aggregation over the neighbours. -/
theorem v13_at (b : Fin 8) (n : Fin 1024) (k : Fin 64) :
    val_main_v13 (F := Ideal) x0 x1 x2 x3 x4 (ix3 b n k)
      = ∑ j : Fin 1024, x1 (ix3 b n j) * val_main_v11 (F := Ideal) x0 x1 x2 x3 x4 (ix2 (row b j) k) := by
  rw [val_main_v13_apply]
  refine Finset.sum_congr rfl fun j _ => ?_
  have el : lidx_main_v13 (ix3 b n k) j = ix3 b n j := funext fun a => by
    match a with
    | ⟨0, _⟩ => rfl
    | ⟨1, _⟩ => rfl
    | ⟨2, _⟩ => rfl
  have er : ridx_main_v13 (ix3 b n k) j = ix3 b j k := funext fun a => by
    match a with
    | ⟨0, _⟩ => rfl
    | ⟨1, _⟩ => rfl
    | ⟨2, _⟩ => rfl
  rw [el, er, v12_at]

/-- The second aggregation in the flat [8192, 64] layout. -/
theorem v14_at (b : Fin 8) (n : Fin 1024) (k : Fin 64) :
    val_main_v14 (F := Ideal) x0 x1 x2 x3 x4 (ix2 (row b n) k)
      = ∑ j : Fin 1024, x1 (ix3 b n j) * val_main_v11 (F := Ideal) x0 x1 x2 x3 x4 (ix2 (row b j) k) := by
  rw [val_main_v14_apply]
  have e : idx_main_v14 (ix2 (row b n) k) = ix3 b n k := funext fun a => Fin.ext (by
    have hb := b.isLt; have hn := n.isLt; have hk := k.isLt
    match a with
    | ⟨0, _⟩ => show ((b.val * 1024 + n.val) * 64 + k.val) / 65536 = b.val; omega
    | ⟨1, _⟩ => show ((b.val * 1024 + n.val) * 64 + k.val) / 64 % 1024 = n.val; omega
    | ⟨2, _⟩ => show ((b.val * 1024 + n.val) * 64 + k.val) % 64 = k.val; omega)
  rw [e, v13_at]

/-- The transposed second weight. -/
theorem v15_at (k : Fin 64) (l : Fin 32) : val_main_v15 (F := Ideal) x5 (ix2 k l) = x5 (ix2 l k) := by
  rw [val_main_v15_apply]
  congr 1
  funext a
  match a with
  | ⟨0, _⟩ => rfl
  | ⟨1, _⟩ => rfl

/-- The second projection. -/
theorem v16_at (b : Fin 8) (n : Fin 1024) (l : Fin 32) :
    val_main_v16 (F := Ideal) x0 x1 x2 x3 x4 x5 (ix2 (row b n) l)
      = ∑ k : Fin 64, (∑ j : Fin 1024, x1 (ix3 b n j) * val_main_v11 (F := Ideal) x0 x1 x2 x3 x4 (ix2 (row b j) k)) * x5 (ix2 l k) := by
  rw [val_main_v16_apply]
  refine Finset.sum_congr rfl fun k _ => ?_
  have el : lidx_main_v16 (ix2 (row b n) l) k = ix2 (row b n) k := funext fun a => by
    match a with
    | ⟨0, _⟩ => rfl
    | ⟨1, _⟩ => rfl
  have er : ridx_main_v16 (ix2 (row b n) l) k = ix2 k l := funext fun a => by
    match a with
    | ⟨0, _⟩ => rfl
    | ⟨1, _⟩ => rfl
  rw [el, er, v14_at, v15_at]

/-- The second bias, broadcast over the rows. -/
theorem v18_at (r : Fin 8192) (l : Fin 32) : val_main_v18 (F := Ideal) x6 (ix2 r l) = x6 (ix1 l) := by
  rw [val_main_v18_apply, val_main_v17_apply]
  congr 1
  funext a
  match a with
  | ⟨0, _⟩ => rfl

/-- The mask, broadcast over the 32 features. -/
theorem v20_at (b : Fin 8) (n : Fin 1024) (l : Fin 32) :
    val_main_v20 (F := Ideal) x2 (ix2 (row b n) l) = x2 (ix2 b n) := by
  rw [val_main_v20_apply, val_main_v1_apply]
  congr 1
  funext a
  have hb := b.isLt; have hn := n.isLt
  match a with
  | ⟨0, _⟩ => refine Fin.ext ?_; show ((b.val * 1024 + n.val) * 1 + 0) / 1024 = b.val; omega
  | ⟨1, _⟩ => refine Fin.ext ?_; show ((b.val * 1024 + n.val) * 1 + 0) % 1024 = n.val; omega

/-- The second layer's output at row b·1024 + n is the layer of the specification over the first layer's. -/
theorem layer2_at (b : Fin 8) (n : Fin 1024) (l : Fin 32) :
    val_main_v21 (F := Ideal) x0 x1 x2 x3 x4 x5 x6 (ix2 (row b n) l)
      = layerRef (fun n j => x1 (ix3 b n j))
          (layerRef (fun n j => x1 (ix3 b n j)) (fun n f => x0 (ix3 b n f)) (fun k f => x3 (ix2 k f)) (fun k => x4 (ix1 k))
            (fun n => x2 (ix2 b n)))
          (fun l k => x5 (ix2 l k)) (fun l => x6 (ix1 l)) (fun n => x2 (ix2 b n)) n l := by
  rw [val_main_v21_apply, val_main_v19_apply, v16_at, v18_at, v20_at]
  simp only [layer1_at]
  rfl

/-- The second layer's output, unflattened to [8, 1024, 32]. -/
theorem v22_at (b : Fin 8) (n : Fin 1024) (l : Fin 32) :
    val_main_v22 (F := Ideal) x0 x1 x2 x3 x4 x5 x6 (ix3 b n l) = val_main_v21 (F := Ideal) x0 x1 x2 x3 x4 x5 x6 (ix2 (row b n) l) := by
  rw [val_main_v22_apply]
  congr 1
  funext a
  have hb := b.isLt; have hn := n.isLt; have hl := l.isLt
  match a with
  | ⟨0, _⟩ => refine Fin.ext ?_; show ((b.val * 1024 + n.val) * 32 + l.val) / 32 = b.val * 1024 + n.val; omega
  | ⟨1, _⟩ => refine Fin.ext ?_; show ((b.val * 1024 + n.val) * 32 + l.val) % 32 = l.val; omega

/-! ## The maximum over the nodes and the last linear map -/

/-- Each feature's maximum over the 1024 nodes, started from the pattern of −∞. -/
theorem v23_at (b : Fin 8) (l : Fin 32) :
    val_main_v23 (F := Ideal) x0 x1 x2 x3 x4 x5 x6 (ix2 b l)
      = (Finset.univ : Finset (Fin 1024)).fold max poolInit
          (fun n => val_main_v21 (F := Ideal) x0 x1 x2 x3 x4 x5 x6 (ix2 (row b n) l)) := by
  unfold val_main_v23
  have h : S8x1024x32.Reduces [1] S8x32 := by decide
  rw [Host.reduce_eq_fold_single FloatOps.maximumf _ _ reducesTo_S8x1024x32_S8x32_d1 h h_S_ (ix2 b l)]
  have e : (val_main_v22 (F := Ideal) x0 x1 x2 x3 x4 x5 x6 ∘ h.lift (ix2 b l))
      = fun n : Fin 1024 => val_main_v21 (F := Ideal) x0 x1 x2 x3 x4 x5 x6 (ix2 (row b n) l) := funext fun (n : Fin 1024) => by
    have ei : h.lift (ix2 b l) n = ix3 b n l := funext fun a => Fin.ext (by
      match a with
      | ⟨0, _⟩ => rfl
      | ⟨1, _⟩ => rfl
      | ⟨2, _⟩ => rfl)
    show val_main_v22 (F := Ideal) x0 x1 x2 x3 x4 x5 x6 (h.lift (ix2 b l) n) = _
    rw [ei, v22_at]
  rw [e]
  rfl

/-- The transposed last weight. -/
theorem v24_at (l : Fin 32) (o : Fin 10) : val_main_v24 (F := Ideal) x7 (ix2 l o) = x7 (ix2 o l) := by
  rw [val_main_v24_apply]
  congr 1
  funext a
  match a with
  | ⟨0, _⟩ => rfl
  | ⟨1, _⟩ => rfl

/-- The last bias, broadcast over the batch. -/
theorem v27_at (b : Fin 8) (o : Fin 10) : val_main_v27 (F := Ideal) x8 (ix2 b o) = x8 (ix1 o) := by
  rw [val_main_v27_apply, val_main_v26_apply]
  congr 1
  funext a
  match a with
  | ⟨0, _⟩ => rfl

/-- The reference's result at batch entry b and output o is the network of the specification. -/
theorem result_at (b : Fin 8) (o : Fin 10) :
    val_main_v28 (F := Ideal) x0 x1 x2 x3 x4 x5 x6 x7 x8 (ix2 b o)
      = network (fun {d e} => layerRef (d := d) (e := e)) x0 x1 x2 x3 x4 x5 x6 x7 x8 b o := by
  rw [val_main_v28_apply, val_main_v25_apply, v27_at]
  have es : ∀ l : Fin 32,
      val_main_v23 (F := Ideal) x0 x1 x2 x3 x4 x5 x6 (lidx_main_v25 (ix2 b o) l) * val_main_v24 (F := Ideal) x7 (ridx_main_v25 (ix2 b o) l)
        = (Finset.univ : Finset (Fin 1024)).fold max poolInit
            (fun n => layerRef (fun n j => x1 (ix3 b n j))
              (layerRef (fun n j => x1 (ix3 b n j)) (fun n f => x0 (ix3 b n f)) (fun k f => x3 (ix2 k f)) (fun k => x4 (ix1 k))
                (fun n => x2 (ix2 b n)))
              (fun l k => x5 (ix2 l k)) (fun l => x6 (ix1 l)) (fun n => x2 (ix2 b n)) n l) * x7 (ix2 o l) := fun l => by
    have el : lidx_main_v25 (ix2 b o) l = ix2 b l := funext fun a => by
      match a with
      | ⟨0, _⟩ => rfl
      | ⟨1, _⟩ => rfl
    have er : ridx_main_v25 (ix2 b o) l = ix2 l o := funext fun a => by
      match a with
      | ⟨0, _⟩ => rfl
      | ⟨1, _⟩ => rfl
    rw [el, er, v23_at, v24_at]
    simp only [layer2_at]
  simp only [es]
  rfl

end Stages2

/-- The reference program's result array is the specification's. -/
theorem ref_value (x0 : (⟨Cert.ReferenceIdeal.S8x1024x128, .f32⟩ : BufTy).Contents (Elt Ideal)) (x1 : (⟨Cert.ReferenceIdeal.S8x1024x1024, .f32⟩ : BufTy).Contents (Elt Ideal)) (x2 : (⟨Cert.ReferenceIdeal.S8x1024, .f32⟩ : BufTy).Contents (Elt Ideal)) (x3 : (⟨Cert.ReferenceIdeal.S64x128, .f32⟩ : BufTy).Contents (Elt Ideal)) (x4 : (⟨Cert.ReferenceIdeal.S64, .f32⟩ : BufTy).Contents (Elt Ideal)) (x5 : (⟨Cert.ReferenceIdeal.S32x64, .f32⟩ : BufTy).Contents (Elt Ideal)) (x6 : (⟨Cert.ReferenceIdeal.S32, .f32⟩ : BufTy).Contents (Elt Ideal)) (x7 : (⟨Cert.ReferenceIdeal.S10x32, .f32⟩ : BufTy).Contents (Elt Ideal)) (x8 : (⟨Cert.ReferenceIdeal.S10, .f32⟩ : BufTy).Contents (Elt Ideal)) :
    Cert.ReferenceIdeal.Read.val_main_v28 (F := Ideal) x0 x1 x2 x3 x4 x5 x6 x7 x8 = resultRef x0 x1 x2 x3 x4 x5 x6 x7 x8 := by
  funext i
  obtain ⟨b, o, rfl⟩ : ∃ (b : Fin 8) (o : Fin 10), i = ix2 b o := ⟨i 0, i 1, eq_ix2 i⟩
  exact result_at x0 x1 x2 x3 x4 x5 x6 x7 x8 b o

end Cert.Gcn

end
-- ==== Proof.KerLemmas.lean ====
/-
  Vector operations of the kernel body read at an index, at the ideal values.

  A product of an [M, K] by a [K, N] array into a zero accumulator is the plain sum over the contracted axis. Two
  blocks set side by side along the columns read, left of the seam, the left block, and right of it the right block
  with the seam's column taken off. A row [1, 1, 1024] recast as a column [1024, 1] and spread across the columns
  reads, at (n, q), the row's entry n. The maximum along the rows of an [1024, e] array from a starting pattern is the
  fold of max over the 1024 row coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx

variable {α : Type}

/-- An [M, K] by [K, N] product into the zero accumulator, at (p, q): the sum over k of lhs (p, k) · rhs (k, q). -/
theorem matmul_plain_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant ⟨2, ![M, N]⟩ .f32 0x00000000#32) (ix2 p q)
      = ∑ k : Fin K, lhs (ix2 p k) * rhs (ix2 k q) := by
  show FloatOps.matmul (DotDims.plain M K N) prec lhs rhs (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- Two [m, e] blocks side by side, read at a column c left of the seam: the left block at c. -/
theorem cat_cols_left {m e e2 : ℕ} (P R : (⟨2, ![m, e]⟩ : Shape).Idx → α)
    (h : Shape.Concatenates [⟨2, ![m, e]⟩, ⟨2, ![m, e]⟩] ⟨2, ![m, e2]⟩ 1) (j : Fin m) (c : Fin e2) (c' : Fin e)
    (hc : c'.val = c.val) :
    concatenate ⟨2, ![m, e2]⟩ 1 [⟨⟨2, ![m, e]⟩, P⟩, ⟨⟨2, ![m, e]⟩, R⟩] h (ix2 j c) = P (ix2 j c') :=
  concatenate_pair_apply_left 1 P R h (ix2 j c) rfl (ix2 j c') fun b => by
    match b with
    | ⟨0, _⟩ => rfl
    | ⟨1, _⟩ => exact hc

/-- Two [m, e] blocks side by side, read at a column c right of the seam: the right block at c − e. -/
theorem cat_cols_right {m e e2 : ℕ} (P R : (⟨2, ![m, e]⟩ : Shape).Idx → α)
    (h : Shape.Concatenates [⟨2, ![m, e]⟩, ⟨2, ![m, e]⟩] ⟨2, ![m, e2]⟩ 1) (j : Fin m) (c : Fin e2) (c' : Fin e)
    (hc : c'.val + e = c.val) :
    concatenate ⟨2, ![m, e2]⟩ 1 [⟨⟨2, ![m, e]⟩, P⟩, ⟨⟨2, ![m, e]⟩, R⟩] h (ix2 j c) = R (ix2 j c') :=
  concatenate_pair_apply_right 1 P R h (ix2 j c) rfl rfl (ix2 j c') (fun b hb => by
    match b with
    | ⟨0, _⟩ => rfl
    | ⟨1, _⟩ => exact absurd rfl hb) hc

/-- A row [1, 1, 1024] recast to [1, 1024], then to a column [1024, 1], then spread over b columns: at (n, q) the
    row's entry n. -/
theorem mask_col_apply {b : ℕ} (v : (⟨3, ![1, 1, 1024]⟩ : Shape).Idx → α)
    (h₁ : (⟨3, ![1, 1, 1024]⟩ : Shape).ShapeCasts ⟨2, ![1, 1024]⟩)
    (h₂ : (⟨2, ![1, 1024]⟩ : Shape).ShapeCasts ⟨2, ![1024, 1]⟩)
    (h₃ : (⟨2, ![1024, 1]⟩ : Shape).Broadcasts ⟨2, ![1024, b]⟩) (n : Fin 1024) (q : Fin b) :
    broadcastTo ⟨2, ![1024, b]⟩ (shapeCast ⟨2, ![1024, 1]⟩ (shapeCast ⟨2, ![1, 1024]⟩ v h₁) h₂) h₃ (ix2 n q)
      = v (ix3 (0 : Fin 1) (0 : Fin 1) n) := by
  refine (broadcastTo_apply _ h₃ (ix2 n q) (ix2 n (0 : Fin 1)) fun ax => ?_).trans
    ((shapeCast_apply _ h₂ _ (ix2 (0 : Fin 1) n) ?_).trans (shapeCast_apply v h₁ _ (ix3 (0 : Fin 1) (0 : Fin 1) n) ?_))
  · match ax with
    | ⟨0, _⟩ => rfl
    | ⟨1, _⟩ => rfl
  · rw [Shape.rowMajor_val_two, Shape.rowMajor_val_two]
    show 0 * 1024 + n.val = n.val * 1 + 0
    omega
  · rw [Shape.rowMajor_val_three, Shape.rowMajor_val_two]
    show (0 * 1 + 0) * 1024 + n.val = 0 * 1024 + n.val
    omega

/-- The maximum down the 1024 rows of an [1024, e] array from the pattern acc, at column l: the fold of max over the
    rows of the entries (n, l). -/
theorem node_max_apply {e : ℕ} (src : FVec Ideal ⟨2, ![1024, e]⟩ .f32) (acc : BitVec (FTy.bits .f32))
    (h : (⟨2, ![1024, e]⟩ : Shape).Reduces [0] ⟨1, ![e]⟩) (hφ : FKind.Formats .f32)
    (hacc : acc = FKind.maximumf.neutral .f32 hφ) (l : Fin e) :
    multiReduction (F := Ideal) .maximumf [0] ⟨1, ![e]⟩ src acc h hφ hacc (ix1 l)
      = (Finset.univ : Finset (Fin 1024)).fold max (FloatOps.ofBits (F := Ideal) .f32 acc) (fun n => src (ix2 n l)) := by
  rw [Ideal.multiReduction_maximumf_single]
  show (Finset.univ : Finset (Fin 1024)).fold max _ (fun n => src (h.lift (ix1 l) n)) = _
  refine congrArg (fun f => (Finset.univ : Finset (Fin 1024)).fold max _ f) (funext fun n => congrArg src ?_)
  exact funext fun ax => Fin.ext (by
    match ax with
    | ⟨0, _⟩ => rfl
    | ⟨1, _⟩ => rfl)

end Cert.Gcn

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KerValue.lean ====
/-
  The kernel body's stored value at an index, at the ideal values, in the layers' own words.

  The body loads the whole blocks of one batch entry: features X [1, 1024, 128], adjacency A [1, 1024, 1024], mask
  [1, 1, 1024], the transposed weights W1ᵀ [128, 64], W2ᵀ [64, 32], Wfcᵀ [32, 10] and the biases as rows. It projects,
  p = X · W1ᵀ, sets p beside its residue p − p, multiplies A into the pair, adds the two halves of the product, adds
  the bias row and multiplies by the mask column: that is `layerKer`. The second layer does the same to the first
  layer's output. The maximum down the nodes, the last product and the last bias make `head`.
-/
import proofs.«145852_g65240553226756_cont_9to1_m_603_8_alg».proof.Proof.Gen.KernelIdeal.Skeleton
import proofs.«145852_g65240553226756_cont_9to1_m_603_8_alg».proof.Proof.Spec
import proofs.«145852_g65240553226756_cont_9to1_m_603_8_alg».proof.Proof.KerLemmas
import proofs.«145852_g65240553226756_cont_9to1_m_603_8_alg».proof.Proof.LibKeepdims

set_option maxRecDepth 16384

noncomputable section

namespace Cert.Gcn

open Cert.KernelIdeal Cert.KernelIdeal.Gen Idealize.ShloMosaic Idealize.ShloMosaic.ValueIdx

variable {α : Type}

/-- A column [1024, 1] spread over b columns: at (n, q) the column's entry n. -/
theorem col_broadcast_apply {b : ℕ} (v : (⟨2, ![1024, 1]⟩ : Shape).Idx → α)
    (h : (⟨2, ![1024, 1]⟩ : Shape).Broadcasts ⟨2, ![1024, b]⟩) (n : Fin 1024) (q : Fin b) :
    broadcastTo ⟨2, ![1024, b]⟩ v h (ix2 n q) = v (ix2 n (0 : Fin 1)) :=
  broadcastTo_apply v h (ix2 n q) (ix2 n (0 : Fin 1)) fun ax => by
    match ax with
    | ⟨0, _⟩ => rfl
    | ⟨1, _⟩ => rfl

/-- The mask block [1, 1, 1024] recast as a column: at (n, 0) the block's entry n. -/
theorem mask_column (v4 : Vec Ideal S1x1x1024 .f32) (n : Fin 1024) :
    k0_pay2 (F := Ideal) v4 (ix2 n (0 : Fin 1)) = v4 (ix3 (0 : Fin 1) (0 : Fin 1) n) := by
  unfold k0_pay2
  refine (shapeCast_apply _ shapeCasts_S1x1024_S1024x1 _ (ix2 (0 : Fin 1) n) ?_).trans
    (shapeCast_apply v4 shapeCasts_S1x1x1024_S1x1024 _ (ix3 (0 : Fin 1) (0 : Fin 1) n) ?_)
  · rw [Shape.rowMajor_val_two, Shape.rowMajor_val_two]
    show 0 * 1024 + n.val = n.val * 1 + 0
    omega
  · rw [Shape.rowMajor_val_three, Shape.rowMajor_val_two]
    show (0 * 1 + 0) * 1024 + n.val = 0 * 1024 + n.val
    omega

/-- The aggregation of one layer at (n, k): the adjacency times the pair [p | p − p], its two halves added. The
    projection p j k = ∑ f, H (j, f) · Wt (f, k). -/
theorem agg_apply {d e e2 : ℕ} (A : FVec Ideal ⟨2, ![1024, 1024]⟩ .bf16) (H : FVec Ideal ⟨2, ![1024, d]⟩ .f32)
    (Wt : FVec Ideal ⟨2, ![d, e]⟩ .f32) (hb : FTy.bits .bf16 < FTy.bits .f32)
    (hc : Shape.Concatenates [⟨2, ![1024, e]⟩, ⟨2, ![1024, e]⟩] ⟨2, ![1024, e2]⟩ 1)
    (hs0 : (⟨2, ![1024, e2]⟩ : Shape).Slices ![0, 0] ⟨2, ![1024, e]⟩)
    (hs1 : (⟨2, ![1024, e2]⟩ : Shape).Slices ![0, e] ⟨2, ![1024, e]⟩) (he : e + e = e2) (n : Fin 1024) (k : Fin e) :
    addf
      (extractStridedSlice ⟨2, ![1024, e]⟩ ![0, 0] (matmul (DotDims.plain 1024 1024 e2) none A
        (concatenate ⟨2, ![1024, e2]⟩ 1
          [⟨⟨2, ![1024, e]⟩, truncf .bf16 (matmul (DotDims.plain 1024 d e) none H Wt (constant ⟨2, ![1024, e]⟩ .f32 0x00000000#32)) hb⟩,
           ⟨⟨2, ![1024, e]⟩, truncf .bf16 (subf (matmul (DotDims.plain 1024 d e) none H Wt (constant ⟨2, ![1024, e]⟩ .f32 0x00000000#32))
              (matmul (DotDims.plain 1024 d e) none H Wt (constant ⟨2, ![1024, e]⟩ .f32 0x00000000#32))) hb⟩] hc)
        (constant ⟨2, ![1024, e2]⟩ .f32 0x00000000#32)) hs0)
      (extractStridedSlice ⟨2, ![1024, e]⟩ ![0, e] (matmul (DotDims.plain 1024 1024 e2) none A
        (concatenate ⟨2, ![1024, e2]⟩ 1
          [⟨⟨2, ![1024, e]⟩, truncf .bf16 (matmul (DotDims.plain 1024 d e) none H Wt (constant ⟨2, ![1024, e]⟩ .f32 0x00000000#32)) hb⟩,
           ⟨⟨2, ![1024, e]⟩, truncf .bf16 (subf (matmul (DotDims.plain 1024 d e) none H Wt (constant ⟨2, ![1024, e]⟩ .f32 0x00000000#32))
              (matmul (DotDims.plain 1024 d e) none H Wt (constant ⟨2, ![1024, e]⟩ .f32 0x00000000#32))) hb⟩] hc)
        (constant ⟨2, ![1024, e2]⟩ .f32 0x00000000#32)) hs1) (ix2 n k)
    = (∑ j : Fin 1024, A (ix2 n j) * (∑ f : Fin d, H (ix2 j f) * Wt (ix2 f k)))
      + (∑ j : Fin 1024, A (ix2 n j) * ((∑ f : Fin d, H (ix2 j f) * Wt (ix2 f k)) - (∑ f : Fin d, H (ix2 j f) * Wt (ix2 f k)))) := by
  have hk0 : k.val < e2 := by have := k.isLt; omega
  have hk1 : e + k.val < e2 := by have := k.isLt; omega
  rw [addf_apply, slice2_axis1_apply 0 _ hs0 n k ⟨k.val, hk0⟩ (Nat.zero_add _).symm,
    slice2_axis1_apply e _ hs1 n k ⟨e + k.val, hk1⟩ rfl, matmul_plain_apply, matmul_plain_apply]
  congr 1
  · refine Finset.sum_congr rfl fun j _ => ?_
    rw [cat_cols_left _ _ hc j ⟨k.val, hk0⟩ k rfl, truncf_apply, matmul_plain_apply]
  · refine Finset.sum_congr rfl fun j _ => ?_
    rw [cat_cols_right _ _ hc j ⟨e + k.val, hk1⟩ k (Nat.add_comm _ _), truncf_apply, subf_apply, matmul_plain_apply]

/-- The aggregation of one layer as a vector: the adjacency times the pair [p | p − p], its two halves added. -/
def aggVec {d e e2 : ℕ} (A : FVec Ideal ⟨2, ![1024, 1024]⟩ .bf16) (H : FVec Ideal ⟨2, ![1024, d]⟩ .f32)
    (Wt : FVec Ideal ⟨2, ![d, e]⟩ .f32) (hb : FTy.bits .bf16 < FTy.bits .f32)
    (hc : Shape.Concatenates [⟨2, ![1024, e]⟩, ⟨2, ![1024, e]⟩] ⟨2, ![1024, e2]⟩ 1)
    (hs0 : (⟨2, ![1024, e2]⟩ : Shape).Slices ![0, 0] ⟨2, ![1024, e]⟩)
    (hs1 : (⟨2, ![1024, e2]⟩ : Shape).Slices ![0, e] ⟨2, ![1024, e]⟩) : FVec Ideal ⟨2, ![1024, e]⟩ .f32 :=
  addf
    (extractStridedSlice ⟨2, ![1024, e]⟩ ![0, 0] (matmul (DotDims.plain 1024 1024 e2) none A
      (concatenate ⟨2, ![1024, e2]⟩ 1
        [⟨⟨2, ![1024, e]⟩, truncf .bf16 (matmul (DotDims.plain 1024 d e) none H Wt (constant ⟨2, ![1024, e]⟩ .f32 0x00000000#32)) hb⟩,
         ⟨⟨2, ![1024, e]⟩, truncf .bf16 (subf (matmul (DotDims.plain 1024 d e) none H Wt (constant ⟨2, ![1024, e]⟩ .f32 0x00000000#32))
            (matmul (DotDims.plain 1024 d e) none H Wt (constant ⟨2, ![1024, e]⟩ .f32 0x00000000#32))) hb⟩] hc)
      (constant ⟨2, ![1024, e2]⟩ .f32 0x00000000#32)) hs0)
    (extractStridedSlice ⟨2, ![1024, e]⟩ ![0, e] (matmul (DotDims.plain 1024 1024 e2) none A
      (concatenate ⟨2, ![1024, e2]⟩ 1
        [⟨⟨2, ![1024, e]⟩, truncf .bf16 (matmul (DotDims.plain 1024 d e) none H Wt (constant ⟨2, ![1024, e]⟩ .f32 0x00000000#32)) hb⟩,
         ⟨⟨2, ![1024, e]⟩, truncf .bf16 (subf (matmul (DotDims.plain 1024 d e) none H Wt (constant ⟨2, ![1024, e]⟩ .f32 0x00000000#32))
            (matmul (DotDims.plain 1024 d e) none H Wt (constant ⟨2, ![1024, e]⟩ .f32 0x00000000#32))) hb⟩] hc)
      (constant ⟨2, ![1024, e2]⟩ .f32 0x00000000#32)) hs1)

/-- One whole layer of the body at (n, k): the aggregation, the bias row added, the mask column multiplied in. -/
theorem layer_apply {d e e2 : ℕ} (A : FVec Ideal ⟨2, ![1024, 1024]⟩ .bf16) (H : FVec Ideal ⟨2, ![1024, d]⟩ .f32)
    (Wt : FVec Ideal ⟨2, ![d, e]⟩ .f32) (brow : (⟨2, ![1, e]⟩ : Shape).Idx → EReal) (mcol : (⟨2, ![1024, 1]⟩ : Shape).Idx → EReal)
    (hb : FTy.bits .bf16 < FTy.bits .f32)
    (hc : Shape.Concatenates [⟨2, ![1024, e]⟩, ⟨2, ![1024, e]⟩] ⟨2, ![1024, e2]⟩ 1)
    (hs0 : (⟨2, ![1024, e2]⟩ : Shape).Slices ![0, 0] ⟨2, ![1024, e]⟩)
    (hs1 : (⟨2, ![1024, e2]⟩ : Shape).Slices ![0, e] ⟨2, ![1024, e]⟩)
    (hb1 : (⟨2, ![1, e]⟩ : Shape).ShapeCasts ⟨2, ![1, e]⟩) (hb2 : (⟨2, ![1, e]⟩ : Shape).Broadcasts ⟨2, ![1024, e]⟩)
    (hm : (⟨2, ![1024, 1]⟩ : Shape).Broadcasts ⟨2, ![1024, e]⟩) (he : e + e = e2) (n : Fin 1024) (k : Fin e) :
    (mulf (addf (aggVec A H Wt hb hc hs0 hs1) (broadcastTo ⟨2, ![1024, e]⟩ (shapeCast ⟨2, ![1, e]⟩ brow hb1) hb2))
      (broadcastTo ⟨2, ![1024, e]⟩ mcol hm) : FVec Ideal ⟨2, ![1024, e]⟩ .f32) (ix2 n k)
    = ((∑ j : Fin 1024, A (ix2 n j) * (∑ f : Fin d, H (ix2 j f) * Wt (ix2 f k)))
        + (∑ j : Fin 1024, A (ix2 n j) * ((∑ f : Fin d, H (ix2 j f) * Wt (ix2 f k)) - (∑ f : Fin d, H (ix2 j f) * Wt (ix2 f k))))
        + brow (ix2 (0 : Fin 1) k)) * mcol (ix2 n (0 : Fin 1)) := by
  rw [mulf_apply, addf_apply, Cert.LibKeepdims.row_broadcast_apply, col_broadcast_apply]
  unfold aggVec
  rw [agg_apply A H Wt hb hc hs0 hs1 he n k]

/-! ## The printed product records are the plain [M, K] by [K, N] products -/

theorem dotP1 : dot_S1024x128_S128x64_S1024x64_1_0_0_1_n_n = DotDims.plain 1024 128 64 := rfl
theorem dotA1 : dot_S1024x1024_S1024x128_S1024x128_1_0_0_1_n_n = DotDims.plain 1024 1024 128 := rfl
theorem dotP2 : dot_S1024x64_S64x32_S1024x32_1_0_0_1_n_n = DotDims.plain 1024 64 32 := rfl
theorem dotA2 : dot_S1024x1024_S1024x64_S1024x64_1_0_0_1_n_n = DotDims.plain 1024 1024 64 := rfl
theorem dotFc : dot_S1x32_S32x10_S1x10_1_0_0_1_n_n = DotDims.plain 1 32 10 := rfl

/-! ## The body's blocks as the layers' operands -/

/-- The adjacency block's entry (n, j). -/
abbrev adjB (v2 : Vec Ideal S1x1024x1024 .f32) : Fin 1024 → Fin 1024 → EReal := fun n j => v2 (ix3 (0 : Fin 1) n j)
/-- The mask block's entry n. -/
abbrev maskB (v4 : Vec Ideal S1x1x1024 .f32) : Fin 1024 → EReal := fun n => v4 (ix3 (0 : Fin 1) (0 : Fin 1) n)

/-- The first layer's output over the loaded blocks. -/
def hidden1 (v0 : Vec Ideal S1x1024x128 .f32) (v2 : Vec Ideal S1x1024x1024 .f32) (v4 : Vec Ideal S1x1x1024 .f32)
    (v8 : Vec Ideal S128x64 .f32) (v20 : Vec Ideal S1x64 .f32) : Fin 1024 → Fin 64 → EReal :=
  layerKer (adjB v2) (fun j f => v0 (ix3 (0 : Fin 1) j f)) (fun k f => v8 (ix2 f k)) (fun k => v20 (ix2 (0 : Fin 1) k)) (maskB v4)

/-- The adjacency operand of both products: the block narrowed and recast, at (n, j) the block's entry. -/
theorem adj_at (v2 : Vec Ideal S1x1024x1024 .f32) (n j : Fin 1024) :
    (truncf .bf16 (shapeCast S1024x1024 v2 shapeCasts_S1x1024x1024_S1024x1024) bitsLt_bf16_f32 : FVec Ideal S1024x1024 .bf16) (ix2 n j)
      = adjB v2 n j :=
  shapeCast_1ab_ab_apply v2 shapeCasts_S1x1024x1024_S1024x1024 n j

/-- The first layer's output vector at (j, k). -/
theorem hidden1_at (v0 : Vec Ideal S1x1024x128 .f32) (v2 : Vec Ideal S1x1024x1024 .f32) (v4 : Vec Ideal S1x1x1024 .f32)
    (v8 : Vec Ideal S128x64 .f32) (v20 : Vec Ideal S1x64 .f32) (j : Fin 1024) (k : Fin 64) :
    (mulf (addf (aggVec (d := 128) (e := 64) (e2 := 128)
          (truncf .bf16 (shapeCast S1024x1024 v2 shapeCasts_S1x1024x1024_S1024x1024) bitsLt_bf16_f32)
          (shapeCast S1024x128 v0 shapeCasts_S1x1024x128_S1024x128) (shapeCast S128x64 v8 shapeCasts_S128x64_S128x64)
          bitsLt_bf16_f32 concatenates_S1024x64_S1024x64_S1024x128_d1 slices_S1024x128_o0_0_S1024x64 slices_S1024x128_o0_64_S1024x64)
        (broadcastTo S1024x64 (shapeCast S1x64 v20 shapeCasts_S1x64_S1x64) broadcasts_S1x64_S1024x64))
      (broadcastTo S1024x64 (k0_pay2 v4) broadcasts_S1024x1_S1024x64) : FVec Ideal S1024x64 .f32) (ix2 j k)
    = hidden1 v0 v2 v4 v8 v20 j k := by
  rw [layer_apply _ _ _ v20 (k0_pay2 v4) bitsLt_bf16_f32 concatenates_S1024x64_S1024x64_S1024x128_d1
    slices_S1024x128_o0_0_S1024x64 slices_S1024x128_o0_64_S1024x64 shapeCasts_S1x64_S1x64 broadcasts_S1x64_S1024x64
    broadcasts_S1024x1_S1024x64 rfl j k, mask_column]
  unfold hidden1 layerKer
  simp only [adj_at, shapeCast_1ab_ab_apply, shapeCast_self]

/-- The second layer's aggregation at (n, l): what the first part of the body hands on. -/
theorem pay3_apply (v0 : Vec Ideal S1x1024x128 .f32) (v2 : Vec Ideal S1x1024x1024 .f32) (v4 : Vec Ideal S1x1x1024 .f32)
    (v8 : Vec Ideal S128x64 .f32) (v20 : Vec Ideal S1x64 .f32) (v26 : Vec Ideal S64x32 .f32) (n : Fin 1024) (l : Fin 32) :
    k0_pay3 (F := Ideal) v0 v2 v4 v8 v20 v26 (ix2 n l)
      = (∑ j : Fin 1024, adjB v2 n j * (∑ k : Fin 64, hidden1 v0 v2 v4 v8 v20 j k * v26 (ix2 k l)))
        + (∑ j : Fin 1024, adjB v2 n j * ((∑ k : Fin 64, hidden1 v0 v2 v4 v8 v20 j k * v26 (ix2 k l))
            - (∑ k : Fin 64, hidden1 v0 v2 v4 v8 v20 j k * v26 (ix2 k l)))) := by
  unfold k0_pay3
  rw [dotP1, dotA1, dotP2, dotA2]
  refine (agg_apply (d := 64) (e := 32) (e2 := 64) _ _ _ bitsLt_bf16_f32 concatenates_S1024x32_S1024x32_S1024x64_d1
    slices_S1024x64_o0_0_S1024x32 slices_S1024x64_o0_32_S1024x32 rfl n l).trans ?_
  refine congrArg₂ (· + ·) (Finset.sum_congr rfl fun j _ => ?_) (Finset.sum_congr rfl fun j _ => ?_)
  · refine congrArg₂ (· * ·) (adj_at v2 n j) (Finset.sum_congr rfl fun k _ => ?_)
    exact congrArg₂ (· * ·) (hidden1_at v0 v2 v4 v8 v20 j k) (congrFun (shapeCast_self v26 shapeCasts_S64x32_S64x32) _)
  · refine congrArg₂ (· * ·) (adj_at v2 n j) (congrArg₂ (· - ·) (Finset.sum_congr rfl fun k _ => ?_)
      (Finset.sum_congr rfl fun k _ => ?_))
    · exact congrArg₂ (· * ·) (hidden1_at v0 v2 v4 v8 v20 j k) (congrFun (shapeCast_self v26 shapeCasts_S64x32_S64x32) _)
    · exact congrArg₂ (· * ·) (hidden1_at v0 v2 v4 v8 v20 j k) (congrFun (shapeCast_self v26 shapeCasts_S64x32_S64x32) _)

/-- The stored block [1, 1, 10] at output o: the head over the second layer, which is the aggregation handed on,
    the bias row added and the mask column multiplied in. -/
theorem pay1_apply (v6 : FVec Ideal S1024x1 .f32) (v37 : FVec Ideal S1024x32 .f32) (v38 : Vec Ideal S1x32 .f32)
    (v46 : Vec Ideal S32x10 .f32) (v49 : Vec Ideal S1x10 .f32) (o : Fin 10) :
    k0_pay1 (F := Ideal) v6 v37 v38 v46 v49 (ix3 (0 : Fin 1) (0 : Fin 1) o)
      = head (fun n l => (v37 (ix2 n l) + v38 (ix2 (0 : Fin 1) l)) * v6 (ix2 n (0 : Fin 1)))
          (fun o l => v46 (ix2 l o)) (fun o => v49 (ix2 (0 : Fin 1) o)) o := by
  unfold k0_pay1
  rw [dotFc]
  refine (shapeCast_ab_1ab_apply _ shapeCasts_S1x10_S1x1x10 (0 : Fin 1) (0 : Fin 1) o).trans ?_
  rw [addf_apply, matmul_plain_apply, shapeCast_self v49]
  unfold head
  refine congrArg₂ (· + ·) (Finset.sum_congr rfl fun l _ => ?_) rfl
  refine congrArg₂ (· * ·) ?_ (congrFun (shapeCast_self v46 shapeCasts_S32x10_S32x10) _)
  refine (shapeCast_a_1a_apply _ shapeCasts_S32_S1x32 (0 : Fin 1) l).trans ?_
  refine (node_max_apply (e := 32) _ _ reduces_S1024x32_S32 _ _ l).trans ?_
  refine congrArg (fun f => (Finset.univ : Finset (Fin 1024)).fold max poolInit f) (funext fun n => ?_)
  rw [mulf_apply, addf_apply, Cert.LibKeepdims.row_broadcast_apply, col_broadcast_apply]

/-- The whole body at output o, over the loaded blocks: the head of the two layers in the kernel's order. -/
theorem body_apply (v0 : Vec Ideal S1x1024x128 .f32) (v2 : Vec Ideal S1x1024x1024 .f32) (v4 : Vec Ideal S1x1x1024 .f32)
    (v8 : Vec Ideal S128x64 .f32) (v20 : Vec Ideal S1x64 .f32) (v26 : Vec Ideal S64x32 .f32) (v38 : Vec Ideal S1x32 .f32)
    (v46 : Vec Ideal S32x10 .f32) (v49 : Vec Ideal S1x10 .f32) (o : Fin 10) :
    k0_pay1 (F := Ideal) (k0_pay2 v4) (k0_pay3 v0 v2 v4 v8 v20 v26) v38 v46 v49 (ix3 (0 : Fin 1) (0 : Fin 1) o)
      = head (layerKer (adjB v2) (hidden1 v0 v2 v4 v8 v20) (fun l k => v26 (ix2 k l)) (fun l => v38 (ix2 (0 : Fin 1) l)) (maskB v4))
          (fun o l => v46 (ix2 l o)) (fun o => v49 (ix2 (0 : Fin 1) o)) o := by
  rw [pay1_apply]
  refine congrArg (fun h => head h (fun o l => v46 (ix2 l o)) (fun o => v49 (ix2 (0 : Fin 1) o)) o) ?_
  funext n l
  rw [pay3_apply, mask_column]
  rfl

/-- When the loaded blocks are batch entry b's slices of the argument arrays (the weights whole and transposed, the
    biases as rows), the body's value at output o is the network at (b, o) in the kernel's order. -/
theorem body_eq_network (v0 : Vec Ideal S1x1024x128 .f32) (v2 : Vec Ideal S1x1024x1024 .f32) (v4 : Vec Ideal S1x1x1024 .f32)
    (v8 : Vec Ideal S128x64 .f32) (v20 : Vec Ideal S1x64 .f32) (v26 : Vec Ideal S64x32 .f32) (v38 : Vec Ideal S1x32 .f32)
    (v46 : Vec Ideal S32x10 .f32) (v49 : Vec Ideal S1x10 .f32)
    (x : (⟨3, ![8, 1024, 128]⟩ : Shape).Idx → EReal) (adj : (⟨3, ![8, 1024, 1024]⟩ : Shape).Idx → EReal)
    (mask : (⟨2, ![8, 1024]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (Wfc : (⟨2, ![10, 32]⟩ : Shape).Idx → EReal)
    (bfc : (⟨1, ![10]⟩ : Shape).Idx → EReal) (b : Fin 8)
    (h0 : ∀ (j : Fin 1024) (f : Fin 128), v0 (ix3 (0 : Fin 1) j f) = x (ix3 b j f))
    (h1 : ∀ n j : Fin 1024, v2 (ix3 (0 : Fin 1) n j) = adj (ix3 b n j))
    (h2 : ∀ n : Fin 1024, v4 (ix3 (0 : Fin 1) (0 : Fin 1) n) = mask (ix2 b n))
    (h3 : ∀ (f : Fin 128) (k : Fin 64), v8 (ix2 f k) = W1 (ix2 k f))
    (h4 : ∀ k : Fin 64, v20 (ix2 (0 : Fin 1) k) = b1 (ix1 k))
    (h5 : ∀ (k : Fin 64) (l : Fin 32), v26 (ix2 k l) = W2 (ix2 l k))
    (h6 : ∀ l : Fin 32, v38 (ix2 (0 : Fin 1) l) = b2 (ix1 l))
    (h7 : ∀ (l : Fin 32) (o : Fin 10), v46 (ix2 l o) = Wfc (ix2 o l))
    (h8 : ∀ o : Fin 10, v49 (ix2 (0 : Fin 1) o) = bfc (ix1 o)) (o : Fin 10) :
    head (layerKer (adjB v2) (hidden1 v0 v2 v4 v8 v20) (fun l k => v26 (ix2 k l)) (fun l => v38 (ix2 (0 : Fin 1) l)) (maskB v4))
        (fun o l => v46 (ix2 l o)) (fun o => v49 (ix2 (0 : Fin 1) o)) o
      = network (fun {d e} => layerKer (d := d) (e := e)) x adj mask W1 b1 W2 b2 Wfc bfc b o := by
  have ha : adjB v2 = fun n j => adj (ix3 b n j) := funext fun n => funext fun j => h1 n j
  have hm : maskB v4 = fun n => mask (ix2 b n) := funext h2
  unfold network hidden1
  simp only [ha, hm, h0, h3, h4, h5, h6, h7, h8]

end Cert.Gcn

end
-- ==== Proof.KerRun.lean ====
/-
  The idealized kernel's run, read as a value.

  The grid has one point per batch entry. At point t the pipeline stages block t of the features, the adjacency and
  the (reshaped) mask, and the whole transposed weights and bias rows, which the host lines before the region made
  from the arguments; the body stores the [1, 1, 10] block t of the result. The eight blocks tile the [8, 1, 10]
  array, and the host line after the region recasts it to [8, 10]. So the result is `resultKer` of the arguments.
-/
import proofs.«145852_g65240553226756_cont_9to1_m_603_8_alg».proof.Proof.Gen.KernelIdeal.Frame
import proofs.«145852_g65240553226756_cont_9to1_m_603_8_alg».proof.Proof.KerValue
import Idealize.ShloMosaic.Lib.Pipeline.Value
import Idealize.ShloMosaic.Lib.StableHlo.Run
import Idealize.ShloMosaic.Lib.ValueLayout

set_option maxRecDepth 16384

noncomputable section

namespace Cert.Gcn

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays, and what the host lines before the region make of them -/

abbrev aX (c : Dev nD) : S8x1024x128.Idx → EReal := m ((c : Thread nD τ).loc main_arg0)
abbrev aAdj (c : Dev nD) : S8x1024x1024.Idx → EReal := m ((c : Thread nD τ).loc main_arg1)
abbrev aMask (c : Dev nD) : S8x1024.Idx → EReal := m ((c : Thread nD τ).loc main_arg2)
abbrev aW1 (c : Dev nD) : S64x128.Idx → EReal := m ((c : Thread nD τ).loc main_arg3)
abbrev ab1 (c : Dev nD) : S64.Idx → EReal := m ((c : Thread nD τ).loc main_arg4)
abbrev aW2 (c : Dev nD) : S32x64.Idx → EReal := m ((c : Thread nD τ).loc main_arg5)
abbrev ab2 (c : Dev nD) : S32.Idx → EReal := m ((c : Thread nD τ).loc main_arg6)
abbrev aWfc (c : Dev nD) : S10x32.Idx → EReal := m ((c : Thread nD τ).loc main_arg7)
abbrev abfc (c : Dev nD) : S10.Idx → EReal := m ((c : Thread nD τ).loc main_arg8)

/-- W1 transposed, as the region finds it. -/
theorem V_W1t (c : Dev nD) : (V m c main_v0 : S128x64.Idx → EReal) = transpose S128x64 [1, 0] (aW1 m c) transposes_S64x128_S128x64_1_0 := by
  show StableHlo.after hostOps0 (fun b => m (c, b)) (Proc.devRef .tc main_v0) = _
  after_results
/-- W2 transposed. -/
theorem V_W2t (c : Dev nD) : (V m c main_v1 : S64x32.Idx → EReal) = transpose S64x32 [1, 0] (aW2 m c) transposes_S32x64_S64x32_1_0 := by
  show StableHlo.after hostOps0 (fun b => m (c, b)) (Proc.devRef .tc main_v1) = _
  after_results
/-- Wfc transposed. -/
theorem V_Wfct (c : Dev nD) : (V m c main_v2 : S32x10.Idx → EReal) = transpose S32x10 [1, 0] (aWfc m c) transposes_S10x32_S32x10_1_0 := by
  show StableHlo.after hostOps0 (fun b => m (c, b)) (Proc.devRef .tc main_v2) = _
  after_results
/-- b1 as a row. -/
theorem V_b1r (c : Dev nD) : (V m c main_v3 : S1x64.Idx → EReal) = shapeCast S1x64 (ab1 m c) shapeCasts_S64_S1x64 := by
  show StableHlo.after hostOps0 (fun b => m (c, b)) (Proc.devRef .tc main_v3) = _
  after_results
  rfl
/-- b2 as a row. -/
theorem V_b2r (c : Dev nD) : (V m c main_v4 : S1x32.Idx → EReal) = shapeCast S1x32 (ab2 m c) shapeCasts_S32_S1x32 := by
  show StableHlo.after hostOps0 (fun b => m (c, b)) (Proc.devRef .tc main_v4) = _
  after_results
  rfl
/-- bfc as a row. -/
theorem V_bfcr (c : Dev nD) : (V m c main_v5 : S1x10.Idx → EReal) = shapeCast S1x10 (abfc m c) shapeCasts_S10_S1x10 := by
  show StableHlo.after hostOps0 (fun b => m (c, b)) (Proc.devRef .tc main_v5) = _
  after_results
  rfl
/-- The mask with a unit axis in the middle. -/
theorem V_mask3 (c : Dev nD) : (V m c main_v6 : S8x1x1024.Idx → EReal) = shapeCast S8x1x1024 (aMask m c) shapeCasts_S8x1024_S8x1x1024 := by
  show StableHlo.after hostOps0 (fun b => m (c, b)) (Proc.devRef .tc main_v6) = _
  after_results
  rfl

/-! ## The windows' blocks at a grid point -/

/-- The grid has one point per batch entry. -/
def batchOf (t : Fin cfg0.N) : Fin 8 := ⟨t.val, N_0 ▸ t.isLt⟩

/-- The printed index maps, decided over the grid: the three batched inputs and the output are at block (t, 0, 0), the
    weights and biases at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

/-- The input blocks at point t, at their literal types. -/
abbrev bX (c : Dev nD) (t : Fin cfg0.N) : Vec Ideal S1x1024x128 .f32 := iblk m c 0 t
abbrev bAdj (c : Dev nD) (t : Fin cfg0.N) : Vec Ideal S1x1024x1024 .f32 := iblk m c 1 t
abbrev bMask (c : Dev nD) (t : Fin cfg0.N) : Vec Ideal S1x1x1024 .f32 := iblk m c 2 t
abbrev bW1t (c : Dev nD) (t : Fin cfg0.N) : Vec Ideal S128x64 .f32 := iblk m c 3 t
abbrev bb1 (c : Dev nD) (t : Fin cfg0.N) : Vec Ideal S1x64 .f32 := iblk m c 4 t
abbrev bW2t (c : Dev nD) (t : Fin cfg0.N) : Vec Ideal S64x32 .f32 := iblk m c 5 t
abbrev bb2 (c : Dev nD) (t : Fin cfg0.N) : Vec Ideal S1x32 .f32 := iblk m c 6 t
abbrev bWfct (c : Dev nD) (t : Fin cfg0.N) : Vec Ideal S32x10 .f32 := iblk m c 7 t
abbrev bbfc (c : Dev nD) (t : Fin cfg0.N) : Vec Ideal S1x10 .f32 := iblk m c 8 t

/-- The feature block at point t is batch entry t of the features. -/
theorem bX_at (c : Dev nD) (t : Fin cfg0.N) (j : Fin 1024) (f : Fin 128) :
    bX m c t (ix3 (0 : Fin 1) j f) = aX m c (ix3 (batchOf t) j f) := by
  obtain ⟨⟨e0, e1, e2⟩, -⟩ := idx_facts t
  show V m c main_arg0 (((cfg0.win 0).blk t).view.emb (ix3 (0 : Fin 1) j f)) = _
  rw [V_main_arg0]
  refine congrArg (aX m c) (funext fun a => Fin.ext ?_)
  match a with
  | ⟨0, _⟩ => show win0_0.index t (0 : Fin 3) * 1 + 1 * 0 = t.val; omega
  | ⟨1, _⟩ => show win0_0.index t (1 : Fin 3) * 1024 + 1 * j.val = j.val; omega
  | ⟨2, _⟩ => show win0_0.index t (2 : Fin 3) * 128 + 1 * f.val = f.val; omega

/-- The adjacency block at point t is batch entry t of the adjacency. -/
theorem bAdj_at (c : Dev nD) (t : Fin cfg0.N) (n j : Fin 1024) :
    bAdj m c t (ix3 (0 : Fin 1) n j) = aAdj m c (ix3 (batchOf t) n j) := by
  obtain ⟨-, ⟨e0, e1, e2⟩, -⟩ := idx_facts t
  show V m c main_arg1 (((cfg0.win 1).blk t).view.emb (ix3 (0 : Fin 1) n j)) = _
  rw [V_main_arg1]
  refine congrArg (aAdj m c) (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 1024 + 1 * j.val = j.val; omega

/-- The mask block at point t is batch entry t of the mask. -/
theorem bMask_at (c : Dev nD) (t : Fin cfg0.N) (n : Fin 1024) :
    bMask m c t (ix3 (0 : Fin 1) (0 : Fin 1) n) = aMask m c (ix2 (batchOf t) n) := by
  obtain ⟨-, -, ⟨e0, e1, e2⟩, -⟩ := idx_facts t
  show V m c main_v6 (((cfg0.win 2).blk t).view.emb (ix3 (0 : Fin 1) (0 : Fin 1) n)) = _
  rw [V_mask3]
  refine shapeCast_apply (aMask m c) shapeCasts_S8x1024_S8x1x1024 _ (ix2 (batchOf t) n) ?_
  rw [Shape.rowMajor_val_two, Shape.rowMajor_val_three]
  show t.val * 1024 + n.val = ((win0_2.index t (0 : Fin 3) * 1 + 1 * 0) * 1 + (win0_2.index t (1 : Fin 3) * 1 + 1 * 0)) * 1024 + (win0_2.index t (2 : Fin 3) * 1024 + 1 * n.val)
  omega

/-- The first weight block is W1 transposed. -/
theorem bW1t_at (c : Dev nD) (t : Fin cfg0.N) (f : Fin 128) (k : Fin 64) :
    bW1t m c t (ix2 f k) = aW1 m c (ix2 k f) := by
  obtain ⟨-, -, -, ⟨e0, e1⟩, -⟩ := idx_facts t
  show V m c main_v0 (((cfg0.win 3).blk t).view.emb (ix2 f k)) = _
  rw [V_W1t]
  refine (congrArg _ (funext fun a => Fin.ext ?_)).trans (transpose_ix2_apply (aW1 m c) transposes_S64x128_S128x64_1_0 f k)
  match a with
  | ⟨0, _⟩ => show win0_3.index t (0 : Fin 2) * 128 + 1 * f.val = f.val; omega
  | ⟨1, _⟩ => show win0_3.index t (1 : Fin 2) * 64 + 1 * k.val = k.val; omega

/-- The first bias block is b1 as a row. -/
theorem bb1_at (c : Dev nD) (t : Fin cfg0.N) (k : Fin 64) :
    bb1 m c t (ix2 (0 : Fin 1) k) = ab1 m c (ix1 k) := by
  obtain ⟨-, -, -, -, ⟨e0, e1⟩, -⟩ := idx_facts t
  show V m c main_v3 (((cfg0.win 4).blk t).view.emb (ix2 (0 : Fin 1) k)) = _
  rw [V_b1r]
  refine (congrArg _ (funext fun a => Fin.ext ?_)).trans (shapeCast_a_1a_apply (ab1 m c) shapeCasts_S64_S1x64 (0 : Fin 1) k)
  match a with
  | ⟨0, _⟩ => show win0_4.index t (0 : Fin 2) * 1 + 1 * 0 = 0; omega
  | ⟨1, _⟩ => show win0_4.index t (1 : Fin 2) * 64 + 1 * k.val = k.val; omega

/-- The second weight block is W2 transposed. -/
theorem bW2t_at (c : Dev nD) (t : Fin cfg0.N) (k : Fin 64) (l : Fin 32) :
    bW2t m c t (ix2 k l) = aW2 m c (ix2 l k) := by
  obtain ⟨-, -, -, -, -, ⟨e0, e1⟩, -⟩ := idx_facts t
  show V m c main_v1 (((cfg0.win 5).blk t).view.emb (ix2 k l)) = _
  rw [V_W2t]
  refine (congrArg _ (funext fun a => Fin.ext ?_)).trans (transpose_ix2_apply (aW2 m c) transposes_S32x64_S64x32_1_0 k l)
  match a with
  | ⟨0, _⟩ => show win0_5.index t (0 : Fin 2) * 64 + 1 * k.val = k.val; omega
  | ⟨1, _⟩ => show win0_5.index t (1 : Fin 2) * 32 + 1 * l.val = l.val; omega

/-- The second bias block is b2 as a row. -/
theorem bb2_at (c : Dev nD) (t : Fin cfg0.N) (l : Fin 32) :
    bb2 m c t (ix2 (0 : Fin 1) l) = ab2 m c (ix1 l) := by
  obtain ⟨-, -, -, -, -, -, ⟨e0, e1⟩, -⟩ := idx_facts t
  show V m c main_v4 (((cfg0.win 6).blk t).view.emb (ix2 (0 : Fin 1) l)) = _
  rw [V_b2r]
  refine (congrArg _ (funext fun a => Fin.ext ?_)).trans (shapeCast_a_1a_apply (ab2 m c) shapeCasts_S32_S1x32 (0 : Fin 1) l)
  match a with
  | ⟨0, _⟩ => show win0_6.index t (0 : Fin 2) * 1 + 1 * 0 = 0; omega
  | ⟨1, _⟩ => show win0_6.index t (1 : Fin 2) * 32 + 1 * l.val = l.val; omega

/-- The last weight block is Wfc transposed. -/
theorem bWfct_at (c : Dev nD) (t : Fin cfg0.N) (l : Fin 32) (o : Fin 10) :
    bWfct m c t (ix2 l o) = aWfc m c (ix2 o l) := by
  obtain ⟨-, -, -, -, -, -, -, ⟨e0, e1⟩, -⟩ := idx_facts t
  show V m c main_v2 (((cfg0.win 7).blk t).view.emb (ix2 l o)) = _
  rw [V_Wfct]
  refine (congrArg _ (funext fun a => Fin.ext ?_)).trans (transpose_ix2_apply (aWfc m c) transposes_S10x32_S32x10_1_0 l o)
  match a with
  | ⟨0, _⟩ => show win0_7.index t (0 : Fin 2) * 32 + 1 * l.val = l.val; omega
  | ⟨1, _⟩ => show win0_7.index t (1 : Fin 2) * 10 + 1 * o.val = o.val; omega

/-- The last bias block is bfc as a row. -/
theorem bbfc_at (c : Dev nD) (t : Fin cfg0.N) (o : Fin 10) :
    bbfc m c t (ix2 (0 : Fin 1) o) = abfc m c (ix1 o) := by
  obtain ⟨-, -, -, -, -, -, -, -, ⟨e0, e1⟩, -⟩ := idx_facts t
  show V m c main_v5 (((cfg0.win 8).blk t).view.emb (ix2 (0 : Fin 1) o)) = _
  rw [V_bfcr]
  refine (congrArg _ (funext fun a => Fin.ext ?_)).trans (shapeCast_a_1a_apply (abfc m c) shapeCasts_S10_S1x10 (0 : Fin 1) o)
  match a with
  | ⟨0, _⟩ => show win0_8.index t (0 : Fin 2) * 1 + 1 * 0 = 0; omega
  | ⟨1, _⟩ => show win0_8.index t (1 : Fin 2) * 10 + 1 * o.val = o.val; omega

/-! ## What a point writes back, the cover, and the array after the region -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output window's buffer after the body, over loaded blocks, at its index (0, 0, o). -/
theorem block_value (x0 : Vec Ideal S1x1024x128 .f32) (x1 : Vec Ideal S1x1024x1024 .f32) (x2 : Vec Ideal S1x1x1024 .f32)
    (x3 : Vec Ideal S128x64 .f32) (x4 : Vec Ideal S1x64 .f32) (x5 : Vec Ideal S64x32 .f32) (x6 : Vec Ideal S1x32 .f32)
    (x7 : Vec Ideal S32x10 .f32) (x8 : Vec Ideal S1x10 .f32) (o : Fin 10) :
    out0_9 (F := Ideal) x0 x1 x2 x3 x4 x5 x6 x7 x8 (ix3 (0 : Fin 1) (0 : Fin 1) o)
      = head (layerKer (adjB x1) (hidden1 x0 x1 x2 x3 x4) (fun l k => x5 (ix2 k l)) (fun l => x6 (ix2 (0 : Fin 1) l)) (maskB x2))
          (fun o l => x7 (ix2 l o)) (fun o => x8 (ix2 (0 : Fin 1) o)) o := by
  unfold out0_9
  rw [View.canon_unit_zero hz3]
  simp only [View.ld_unit_zero (S := S1x1024x128) hz3, View.ld_unit_zero (S := S1x1024x1024) hz3,
    View.ld_unit_zero (S := S1x1x1024) hz3, View.ld_unit_zero (S := S128x64) hz2, View.ld_unit_zero (S := S1x64) hz2,
    View.ld_unit_zero (S := S64x32) hz2, View.ld_unit_zero (S := S1x32) hz2, View.ld_unit_zero (S := S32x10) hz2,
    View.ld_unit_zero (S := S1x10) hz2]
  exact body_apply x0 x1 x2 x3 x4 x5 x6 x7 x8 o

/-- The [8, 1, 10] array the region leaves: the network in the kernel's order, entry (b, 0, o). -/
def outArr (c : Dev nD) : S8x1x10.Idx → EReal := fun i =>
  network (fun {d e} => layerKer (d := d) (e := e)) (aX m c) (aAdj m c) (aMask m c) (aW1 m c) (ab1 m c) (aW2 m c) (ab2 m c)
    (aWfc m c) (abfc m c) (i 0) (i 2)

/-- WHAT POINT t WRITES BACK is block t of that array. -/
theorem flushed9_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  obtain ⟨-, -, -, -, -, -, -, -, -, ⟨e0, e1, e2⟩⟩ := idx_facts t
  have key : ∀ y : S1x1x10.Idx,
      out0_9 (bX m c t) (bAdj m c t) (bMask m c t) (bW1t m c t) (bb1 m c t) (bW2t m c t) (bb2 m c t) (bWfct m c t) (bbfc m c t) y
        = outArr m c (((cfg0.win 9).blk t).view.emb y) := by
    intro y
    obtain ⟨u, u', o, rfl⟩ : ∃ (u u' : Fin 1) (o : Fin 10), y = ix3 u u' o := ⟨y 0, y 1, y 2, eq_ix3 y⟩
    obtain rfl : u = 0 := Subsingleton.elim _ _
    obtain rfl : u' = 0 := Subsingleton.elim _ _
    rw [block_value]
    refine (body_eq_network _ _ _ _ _ _ _ _ _ (aX m c) (aAdj m c) (aMask m c) (aW1 m c) (ab1 m c) (aW2 m c) (ab2 m c) (aWfc m c)
      (abfc m c) (batchOf t) (bX_at m c t) (bAdj_at m c t) (bMask_at m c t) (bW1t_at m c t) (bb1_at m c t) (bW2t_at m c t)
      (bb2_at m c t) (bWfct_at m c t) (bbfc_at m c t) o).trans ?_
    unfold outArr
    congr 1
    · exact Fin.ext (by show t.val = win0_9.index t (0 : Fin 3) * 1 + 1 * 0; omega)
    · exact Fin.ext (by show o.val = win0_9.index t (2 : Fin 3) * 10 + 1 * o.val; omega)
  funext y
  exact key y

/-- An index of the array is in point t's block iff each coordinate is in the block's range on its axis. -/
theorem mem_blk9 (t : Fin cfg0.N) (i : S8x1x10.Idx) :
    i ∈ ((cfg0.win 9).blk t).view.set ↔ ∀ a : Fin 3, win0_9.index t a * S1x1x10.size a ≤ (i a).val
      ∧ (i a).val < win0_9.index t a * S1x1x10.size a + S1x1x10.size a := by
  show i ∈ ((View.whole main_v7).slice (win0_9.rect t)).set ↔ _
  rw [View.set_slice_whole, Rect.mem_set_unit]
  exact Iff.rfl

/-- Every entry (b, 0, o) lies in the block of point b. -/
theorem cover9 (i : S8x1x10.Idx) : ∃ t : Fin cfg0.N, (cfg0.win 9).flush t = true ∧ i ∈ ((cfg0.win 9).blk t).view.set := by
  have hi0 : (i 0).val < 8 := (i 0).isLt
  have hi1 : (i 1).val < 1 := (i 1).isLt
  have hi2 : (i 2).val < 10 := (i 2).isLt
  let t : Fin cfg0.N := ⟨(i 0).val, (lt_of_lt_of_eq hi0 N_0.symm : (i 0).val < grid0.N)⟩
  obtain ⟨-, -, -, -, -, -, -, -, -, ⟨e0, e1, e2⟩⟩ := idx_facts t
  have ht : t.val = (i 0).val := rfl
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 10 ≤ (i 2).val ∧ (i 2).val < win0_9.index t (2 : Fin 3) * 10 + 10; omega

/-- THE ARRAY after the region. -/
theorem final9 (c : Dev nD) : (dats m 0 c).arrAt 9 cfg0.N = outArr m c :=
  (dats m 0 c).arrAt_eq_of_cover 9 (outArr m c) (fun t _ => flushed9_eq m c t) cover9

/-! ## The host line after the region, and the run -/

/-- The result [8, 10]: the array recast. -/
theorem result_eq (c : Dev nD) :
    Pipeline.afterTail₀ cfgs (dats m) 0 (V0 m) [hostOps1] c main_v8
      = resultKer (aX m c) (aAdj m c) (aMask m c) (aW1 m c) (ab1 m c) (aW2 m c) (ab2 m c) (aWfc m c) (abfc m c) := by
  unfold Pipeline.afterTail₀
  show StableHlo.after hostOps1 _ (Proc.devRef .tc main_v8) = _
  after_results
  rw [(Pipeline.withArrays_arr spec0 launch0.win.arr_inj c _ _ 9).trans (final9 m c)]
  funext i
  obtain ⟨b, o, rfl⟩ : ∃ (b : Fin 8) (o : Fin 10), i = ix2 b o := ⟨i 0, i 1, eq_ix2 i⟩
  refine (shapeCast_apply (outArr m c) shapeCasts_S8x1x10_S8x10 (ix2 b o) (ix3 b (0 : Fin 1) o) ?_).trans rfl
  rw [Shape.rowMajor_val_three, Shape.rowMajor_val_two]
  show (b.val * 1 + 0) * 10 + o.val = b.val * 10 + o.val
  omega

/-- The idealized kernel runs, its result is `resultKer` of the arguments, and the arguments end unchanged. -/
theorem ker_run : θ_run defs (onTc (τ := τ) (main (F := Ideal))) ⟨m, fun _ => 0, ρ⟩ fun r => ∀ c : Dev nD,
      r.2.mem ((c.tc : Thread nD τ).loc main_v8)
        = resultKer (aX m c) (aAdj m c) (aMask m c) (aW1 m c) (ab1 m c) (aW2 m c) (ab2 m c) (aWfc m c) (abfc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Gcn

end
-- ==== Proof.lean ====
/-
  A two-layer graph convolution over a dense adjacency, a maximum over the nodes and a last linear map, per batch
  entry: the kernel against its plain reference, over the extended reals.

  Each layer of the reference is ((A · h) · Wᵀ + bias) ⊙ mask. The kernel computes A · (h · Wᵀ) instead, and feeds the
  adjacency product the projection p set beside its residue p − p, adding the two halves afterwards. For finite
  inputs every entry is a real number: p − p is 0, A · 0 is 0, and A · (h · Wᵀ) = (A · h) · Wᵀ by distributivity and
  the exchange of two finite sums (Proof/Algebra.lean; on the extended reals the law needs the finiteness, which
  Proof/Finite.lean reads off the precondition). The maximum and the last linear map are the same on both sides.
  The reference's value is read off its run stage by stage (Proof/RefValue.lean), the kernel's off its frame run:
  the body's stored block at an index (Proof/KerValue.lean), the blocks at a grid point, the cover of the result
  array by the eight blocks and the host line after the region (Proof/KerRun.lean).
-/
import proofs.«145852_g65240553226756_cont_9to1_m_603_8_alg».proof.Defs
import proofs.«145852_g65240553226756_cont_9to1_m_603_8_alg».proof.Proof.Gen.Kernel
import proofs.«145852_g65240553226756_cont_9to1_m_603_8_alg».proof.Proof.Gen.Kernel.Skeleton
import proofs.«145852_g65240553226756_cont_9to1_m_603_8_alg».proof.Proof.Gen.Kernel.Launch
import proofs.«145852_g65240553226756_cont_9to1_m_603_8_alg».proof.Proof.Gen.Kernel.Points
import proofs.«145852_g65240553226756_cont_9to1_m_603_8_alg».proof.Proof.Gen.Kernel.Frame
import proofs.«145852_g65240553226756_cont_9to1_m_603_8_alg».proof.Proof.Gen.KernelIdeal
import proofs.«145852_g65240553226756_cont_9to1_m_603_8_alg».proof.Proof.Gen.KernelIdeal.Skeleton
import proofs.«145852_g65240553226756_cont_9to1_m_603_8_alg».proof.Proof.Gen.KernelIdeal.Launch
import proofs.«145852_g65240553226756_cont_9to1_m_603_8_alg».proof.Proof.Gen.KernelIdeal.Points
import proofs.«145852_g65240553226756_cont_9to1_m_603_8_alg».proof.Proof.Gen.KernelIdeal.Frame
import proofs.«145852_g65240553226756_cont_9to1_m_603_8_alg».proof.Proof.Gen.ReferenceIdeal
import proofs.«145852_g65240553226756_cont_9to1_m_603_8_alg».proof.Proof.Gen.Pre_finite_inputs
import proofs.«145852_g65240553226756_cont_9to1_m_603_8_alg».proof.Proof.Gen.ReferenceIdeal.Run
import proofs.«145852_g65240553226756_cont_9to1_m_603_8_alg».proof.Proof.Gen.ReferenceIdeal.Read
import proofs.«145852_g65240553226756_cont_9to1_m_603_8_alg».proof.Proof.Algebra
import proofs.«145852_g65240553226756_cont_9to1_m_603_8_alg».proof.Proof.Finite
import proofs.«145852_g65240553226756_cont_9to1_m_603_8_alg».proof.Proof.RefValue
import proofs.«145852_g65240553226756_cont_9to1_m_603_8_alg».proof.Proof.KerRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on the ideal values, at both projections' shapes. -/
theorem preserves : Cert.preserves_Kernel_KernelIdeal :=
  ⟨IdealRules.truncf_extf.statement _ .f32 .bf16, IdealRules.truncf_extf.statement _ .f32 .bf16⟩

/-- From arguments that agree and are finite, both programs end at the reference's value: the kernel's own value is
    the network in the kernel's order, equal to the reference's order on real entries. -/
theorem algebraic : Cert.algebraic_KernelIdeal_ReferenceIdeal := by
  intro m ρ m' ρ' hpre hagree
  refine ⟨fun c => Cert.Gcn.resultKer (Cert.Gcn.aX m c) (Cert.Gcn.aAdj m c) (Cert.Gcn.aMask m c) (Cert.Gcn.aW1 m c)
    (Cert.Gcn.ab1 m c) (Cert.Gcn.aW2 m c) (Cert.Gcn.ab2 m c) (Cert.Gcn.aWfc m c) (Cert.Gcn.abfc m c),
    Cert.Gcn.ker_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  obtain ⟨r0, r1, r2, r3, r4, r5, r6, -, -⟩ := Cert.Gcn.isReal_of_pre _ _ _ _ _ _ _ _ _ (hpre c)
  refine (Cert.ReferenceIdeal.Read.val_main_v28_eq _ _ _ _ _ _ _ _ _).trans ?_
  refine (Cert.Gcn.ref_value _ _ _ _ _ _ _ _ _).trans ?_
  exact (Cert.Gcn.resultKer_eq_resultRef _ _ _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
